-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S1001x1024 : Shape := ⟨2, ![1001, 1024]⟩
abbrev S7168x2048 : Shape := ⟨2, ![7168, 2048]⟩
abbrev S7168 : Shape := ⟨1, ![7168]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S1001x1024 : S_.BroadcastsInDim S1001x1024 (![] : Fin 0 → Fin S1001x1024.rank)
  reducesTo_S1001x1024_S_d0_1 : S1001x1024.ReducesTo [0, 1] S_
  bcast_S_S7168x2048 : S_.BroadcastsInDim S7168x2048 (![] : Fin 0 → Fin S7168x2048.rank)
  reducesTo_S7168x2048_S_d0_1 : S7168x2048.ReducesTo [0, 1] S_
  bcast_S_S7168 : S_.BroadcastsInDim S7168 (![] : Fin 0 → Fin S7168.rank)
  reducesTo_S7168_S_d0 : S7168.ReducesTo [0] S_

variable [Facts]

def fn_part1 {F : FTy → Type} [FloatOps F] (main_arg0 : IVec S32x512 32) (main_v13 : IVec S_ 1) (main_v16 : IVec S7168 1) : IVec S_ 1 :=
  let main_c_5 : IVec S_ 1 := constantI S_ 1 1#1
  let main_v17 : IVec S_ 1 := (fun x v => Host.reduce IntOp.andi x v reducesTo_S7168_S_d0 h_S_) main_v16 main_c_5
  let main_v18 : IVec S_ 1 := andi main_v13 main_v17
  let main_c_6 : IVec S_ 32 := constantI S_ 32 4294966295#32
  let main_v19 : IVec S32x512 32 := broadcastInDim S32x512 ![] bcast_S_S32x512 main_c_6
  let main_v20 : IVec S32x512 1 := cmpi .sge main_arg0 main_v19
  let main_c_7 : IVec S_ 32 := constantI S_ 32 1000#32
  let main_v21 : IVec S32x512 32 := broadcastInDim S32x512 ![] bcast_S_S32x512 main_c_7
  let main_v22 : IVec S32x512 1 := cmpi .sle main_arg0 main_v21
  let main_v23 : IVec S32x512 1 := andi main_v20 main_v22
  let main_c_8 : IVec S_ 1 := constantI S_ 1 1#1
  let main_v24 : IVec S_ 1 := (fun x v => Host.reduce IntOp.andi x v reducesTo_S32x512_S_d0_1 h_S_) main_v23 main_c_8
  let main_v25 : IVec S_ 1 := andi main_v18 main_v24
  main_v25

def fn {F : FTy → Type} [FloatOps F] (main_arg0 : IVec S32x512 32) (main_arg1 : FVec F S32x512 .f32) (main_arg2 : FVec F S1001x1024 .f32) (main_arg3 : FVec F S7168x2048 .f32) (main_arg4 : FVec F S7168 .f32) : IVec S_ 1 :=
  let main_v0 : FVec F S32x512 .f32 := Host.absf main_arg1
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S1001x1024 .f32 := Host.absf main_arg2
  let main_cst_0 : FVec F S_ .f32 := constant S_ .f32 0x7F800000#32
  let main_v5 : FVec F S1001x1024 .f32 := broadcastInDim S1001x1024 ![] bcast_S_S1001x1024 main_cst_0
  let main_v6 : IVec S1001x1024 1 := cmpf .olt main_v4 main_v5
  let main_c_1 : IVec S_ 1 := constantI S_ 1 1#1
  let main_v7 : IVec S_ 1 := (fun x v => Host.reduce IntOp.andi x v reducesTo_S1001x1024_S_d0_1 h_S_) main_v6 main_c_1
  let main_v8 : IVec S_ 1 := andi main_v3 main_v7
  let main_v9 : FVec F S7168x2048 .f32 := Host.absf main_arg3
  let main_cst_2 : FVec F S_ .f32 := constant S_ .f32 0x7F800000#32
  let main_v10 : FVec F S7168x2048 .f32 := broadcastInDim S7168x2048 ![] bcast_S_S7168x2048 main_cst_2
  let main_v11 : IVec S7168x2048 1 := cmpf .olt main_v9 main_v10
  let main_c_3 : IVec S_ 1 := constantI S_ 1 1#1
  let main_v12 : IVec S_ 1 := (fun x v => Host.reduce IntOp.andi x v reducesTo_S7168x2048_S_d0_1 h_S_) main_v11 main_c_3
  let main_v13 : IVec S_ 1 := andi main_v8 main_v12
  let main_v14 : FVec F S7168 .f32 := Host.absf main_arg4
  let main_cst_4 : FVec F S_ .f32 := constant S_ .f32 0x7F800000#32
  let main_v15 : FVec F S7168 .f32 := broadcastInDim S7168 ![] bcast_S_S7168 main_cst_4
  let main_v16 : IVec S7168 1 := cmpf .olt main_v14 main_v15
  fn_part1 (F := F) main_arg0 main_v13 main_v16
-- ==== Kernel.lean ====
abbrev S32x512 : Shape := ⟨2, ![32, 512]⟩
abbrev S1001x1024 : Shape := ⟨2, ![1001, 1024]⟩
abbrev S7168x2048 : Shape := ⟨2, ![7168, 2048]⟩
abbrev S7168 : Shape := ⟨1, ![7168]⟩
abbrev S512x32 : Shape := ⟨2, ![512, 32]⟩
abbrev S_ : Shape := ⟨0, ![]⟩
abbrev S512x32x1 : Shape := ⟨3, ![512, 32, 1]⟩
abbrev S1 : Shape := ⟨1, ![1]⟩
abbrev S1x1x1 : Shape := ⟨3, ![1, 1, 1]⟩
abbrev S512x32x1024 : Shape := ⟨3, ![512, 32, 1024]⟩
abbrev S7168x1024 : Shape := ⟨2, ![7168, 1024]⟩
abbrev S1024x1024 : Shape := ⟨2, ![1024, 1024]⟩
abbrev S5120x1024 : Shape := ⟨2, ![5120, 1024]⟩
abbrev S1024 : Shape := ⟨1, ![1024]⟩
abbrev S5120 : Shape := ⟨1, ![5120]⟩
abbrev S1024x5120 : Shape := ⟨2, ![1024, 5120]⟩
abbrev S5x512x32x1024 : Shape := ⟨4, ![5, 512, 32, 1024]⟩
abbrev S8x32x1024 : Shape := ⟨3, ![8, 32, 1024]⟩
abbrev S8x32 : Shape := ⟨2, ![8, 32]⟩
abbrev S5x8x32x1024 : Shape := ⟨4, ![5, 8, 32, 1024]⟩
abbrev S256x1024 : Shape := ⟨2, ![256, 1024]⟩
abbrev S256x5120 : Shape := ⟨2, ![256, 5120]⟩
abbrev S1x5120 : Shape := ⟨2, ![1, 5120]⟩
abbrev S8x32x1 : Shape := ⟨3, ![8, 32, 1]⟩
abbrev S1x8x32x1024 : Shape := ⟨4, ![1, 8, 32, 1024]⟩

abbrev nBuf : Space → Nat
  | .hbm => 49
  | .vmem => 9
  | .smem => 0
  | _ => 0

abbrev bufTy : (tb : Table) → Fin (tcTables nBuf tb) → BufTy
  | .hbm, ⟨0, _⟩ => ⟨S32x512, .i32⟩
  | .hbm, ⟨1, _⟩ => ⟨S32x512, .f32⟩
  | .hbm, ⟨2, _⟩ => ⟨S1001x1024, .f32⟩
  | .hbm, ⟨3, _⟩ => ⟨S7168x2048, .f32⟩
  | .hbm, ⟨4, _⟩ => ⟨S7168, .f32⟩
  | .hbm, ⟨5, _⟩ => ⟨S512x32, .i32⟩
  | .hbm, ⟨6, _⟩ => ⟨S512x32, .f32⟩
  | .hbm, ⟨7, _⟩ => ⟨S_, .i32⟩
  | .hbm, ⟨8, _⟩ => ⟨S512x32, .i32⟩
  | .hbm, ⟨9, _⟩ => ⟨S512x32, .i1⟩
  | .hbm, ⟨10, _⟩ => ⟨S_, .i32⟩
  | .hbm, ⟨11, _⟩ => ⟨S512x32, .i32⟩
  | .hbm, ⟨12, _⟩ => ⟨S512x32, .i32⟩
  | .hbm, ⟨13, _⟩ => ⟨S512x32, .i32⟩
  | .hbm, ⟨14, _⟩ => ⟨S512x32x1, .i32⟩
  | .hbm, ⟨15, _⟩ => ⟨S1, .i32⟩
  | .hbm, ⟨16, _⟩ => ⟨S_, .i32⟩
  | .hbm, ⟨17, _⟩ => ⟨S512x32x1, .i32⟩
  | .hbm, ⟨18, _⟩ => ⟨S512x32x1, .i1⟩
  | .hbm, ⟨19, _⟩ => ⟨S1x1x1, .i32⟩
  | .hbm, ⟨20, _⟩ => ⟨S512x32x1, .i32⟩
  | .hbm, ⟨21, _⟩ => ⟨S512x32x1, .i1⟩
  | .hbm, ⟨22, _⟩ => ⟨S512x32x1, .i1⟩
  | .hbm, ⟨23, _⟩ => ⟨S_, .i1⟩
  | .hbm, ⟨24, _⟩ => ⟨S512x32, .i1⟩
  | .hbm, ⟨25, _⟩ => ⟨S512x32x1024, .f32⟩
  | .hbm, ⟨26, _⟩ => ⟨S512x32x1024, .i1⟩
  | .hbm, ⟨27, _⟩ => ⟨S_, .f32⟩
  | .hbm, ⟨28, _⟩ => ⟨S512x32x1024, .f32⟩
  | .hbm, ⟨29, _⟩ => ⟨S512x32x1024, .f32⟩
  | .hbm, ⟨30, _⟩ => ⟨S7168x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S5120x1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S5120, .f32⟩
  | .hbm, ⟨43, _⟩ => ⟨S1024x5120, .f32⟩
  | .hbm, ⟨44, _⟩ => ⟨S1024x5120, .bf16⟩
  | .hbm, ⟨45, _⟩ => ⟨S1024x5120, .f32⟩
  | .hbm, ⟨46, _⟩ => ⟨S1024x5120, .f32⟩
  | .hbm, ⟨47, _⟩ => ⟨S1024x5120, .bf16⟩
  | .hbm, ⟨48, _⟩ => ⟨S5x512x32x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x32, .f32⟩
  | .local _ .vmem, ⟨3, _⟩ => ⟨S8x32, .f32⟩
  | .local _ .vmem, ⟨4, _⟩ => ⟨S1024x5120, .bf16⟩
  | .local _ .vmem, ⟨5, _⟩ => ⟨S1024x5120, .bf16⟩
  | .local _ .vmem, ⟨6, _⟩ => ⟨S5120, .f32⟩
  | .local _ .vmem, ⟨7, _⟩ => ⟨S5x8x32x1024, .f32⟩
  | .local _ .vmem, ⟨8, _⟩ => ⟨S5x8x32x1024, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5x8x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512_S512x32_1_0 : S32x512.Transposes [1, 0] S512x32
  bcast_S_S512x32 : S_.BroadcastsInDim S512x32 (![] : Fin 0 → Fin S512x32.rank)
  bcast_S512x32_S512x32x1_0_1 : S512x32.BroadcastsInDim S512x32x1 (![0, 1] : Fin 2 → Fin S512x32x1.rank)
  bcast_S_S512x32x1 : S_.BroadcastsInDim S512x32x1 (![] : Fin 0 → Fin S512x32x1.rank)
  bcast_S1_S1x1x1_2 : S1.BroadcastsInDim S1x1x1 (![2] : Fin 1 → Fin S1x1x1.rank)
  bcast_S1x1x1_S512x32x1_0_1_2 : S1x1x1.BroadcastsInDim S512x32x1 (![0, 1, 2] : Fin 3 → Fin S512x32x1.rank)
  reducesTo_S512x32x1_S512x32_d2 : S512x32x1.ReducesTo [2] S512x32
  h_S_ : 0 < S_.numel
  bcast_S512x32_S512x32x1024_0_1 : S512x32.BroadcastsInDim S512x32x1024 (![0, 1] : Fin 2 → Fin S512x32x1024.rank)
  bcast_S_S512x32x1024 : S_.BroadcastsInDim S512x32x1024 (![] : Fin 0 → Fin S512x32x1024.rank)
  slices_S7168x2048_S7168x1024_0_0 : S7168x2048.Slices ![0, 0] S7168x1024
  slices_S7168x1024_S1024x1024_0_0 : S7168x1024.Slices ![0, 0] S1024x1024
  slices_S7168x1024_S1024x1024_2048_0 : S7168x1024.Slices ![2048, 0] S1024x1024
  slices_S7168x1024_S1024x1024_3072_0 : S7168x1024.Slices ![3072, 0] S1024x1024
  slices_S7168x1024_S1024x1024_4096_0 : S7168x1024.Slices ![4096, 0] S1024x1024
  slices_S7168x1024_S1024x1024_6144_0 : S7168x1024.Slices ![6144, 0] S1024x1024
  concatenates_S1024x1024_S1024x1024_S1024x1024_S1024x1024_S1024x1024_S5120x1024_d0 : Shape.Concatenates [S1024x1024, S1024x1024, S1024x1024, S1024x1024, S1024x1024] S5120x1024 0
  slices_S7168_S1024_0 : S7168.Slices ![0] S1024
  slices_S7168_S1024_2048 : S7168.Slices ![2048] S1024
  slices_S7168_S1024_3072 : S7168.Slices ![3072] S1024
  slices_S7168_S1024_4096 : S7168.Slices ![4096] S1024
  slices_S7168_S1024_6144 : S7168.Slices ![6144] S1024
  concatenates_S1024_S1024_S1024_S1024_S1024_S5120_d0 : Shape.Concatenates [S1024, S1024, S1024, S1024, S1024] S5120 0
  transposes_S5120x1024_S1024x5120_1_0 : S5120x1024.Transposes [1, 0] S1024x5120
  bitsLt_bf16_f32 : FTy.bits .bf16 < FTy.bits .f32
  inb_S8x32x1024_S8x32x1024_0_0_0 : ∀ a, (![0, 0, 0] : Fin 3 → Nat) a + S8x32x1024.size a ≤ S8x32x1024.size a
  h_S8x32x1024 : 0 < S8x32x1024.numel
  shapeCasts_S8x32x1024_S8x32x1024 : S8x32x1024.ShapeCasts S8x32x1024
  shapeCasts_S8x32x1024_S256x1024 : S8x32x1024.ShapeCasts S256x1024
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S5120_S5120_0 : ∀ a, (![0] : Fin 1 → Nat) a + S5120.size a ≤ S5120.size a
  h_S5120 : 0 < S5120.numel
  shapeCasts_S5120_S5120 : S5120.ShapeCasts S5120
  shapeCasts_S5120_S1x5120 : S5120.ShapeCasts S1x5120
  broadcasts_S1x5120_S256x5120 : S1x5120.Broadcasts S256x5120
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x1024 : S256x5120.Slices ![0, 3072] S256x1024
  slices_S256x5120_o0_4096_S256x1024 : S256x5120.Slices ![0, 4096] S256x1024
  shapeCasts_S256x1024_S8x32x1024 : S256x1024.ShapeCasts S8x32x1024
  inb_S8x32_S8x32_0_0 : ∀ a, (![0, 0] : Fin 2 → Nat) a + S8x32.size a ≤ S8x32.size a
  h_S8x32 : 0 < S8x32.numel
  shapeCasts_S8x32_S8x32 : S8x32.ShapeCasts S8x32
  shapeCasts_S8x32_S8x32x1 : S8x32.ShapeCasts S8x32x1
  broadcasts_S8x32x1_S8x32x1024 : S8x32x1.Broadcasts S8x32x1024
  inb_S5x8x32x1024_S1x8x32x1024_0_0_0_0 : ∀ a, (![0, 0, 0, 0] : Fin 4 → Nat) a + S1x8x32x1024.size a ≤ S5x8x32x1024.size a
  h_S1x8x32x1024 : 0 < S1x8x32x1024.numel
  shapeCasts_S1x8x32x1024_S8x32x1024 : S1x8x32x1024.ShapeCasts S8x32x1024
  shapeCasts_S8x32x1024_S1x8x32x1024 : S8x32x1024.ShapeCasts S1x8x32x1024
  inb_S5x8x32x1024_S1x8x32x1024_1_0_0_0 : ∀ a, (![1, 0, 0, 0] : Fin 4 → Nat) a + S1x8x32x1024.size a ≤ S5x8x32x1024.size a
  inb_S5x8x32x1024_S1x8x32x1024_2_0_0_0 : ∀ a, (![2, 0, 0, 0] : Fin 4 → Nat) a + S1x8x32x1024.size a ≤ S5x8x32x1024.size a
  inb_S5x8x32x1024_S1x8x32x1024_3_0_0_0 : ∀ a, (![3, 0, 0, 0] : Fin 4 → Nat) a + S1x8x32x1024.size a ≤ S5x8x32x1024.size a
  inb_S5x8x32x1024_S1x8x32x1024_4_0_0_0 : ∀ a, (![4, 0, 0, 0] : Fin 4 → Nat) a + S1x8x32x1024.size a ≤ S5x8x32x1024.size a
  gather_S1001x1024_S512x32x1_S512x32x1024_2_0_n_n_0_2_11024_wf : GatherDims.WF S1001x1024 S512x32x1 S512x32x1024 [2] [0] [] [0] [] 2 ![1, 1024]
  dot_S256x1024_S1024x5120_S256x5120_1_0_0_1_n_n_wf : DotDims.WF S256x1024 S1024x5120 S256x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x1024.size a ≤ S512x32x1024.size a
  hwx0_0 : ∀ i : grid0.Coords, EltTy.bits .f32 = 32 ∨ (Rect.block (s := S512x32x1024) S8x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S512x32.size a
  hwx0_1 : ∀ i : grid0.Coords, EltTy.bits .f32 = 32 ∨ (Rect.block (s := S512x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x5120.size a ≤ S1024x5120.size a
  hwx0_2 : ∀ i : grid0.Coords, EltTy.bits .bf16 = 32 ∨ (Rect.block (s := S1024x5120) S1024x5120.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x5120.size a ≤ S1024x5120.size a
  hwx0_3 : ∀ i : grid0.Coords, EltTy.bits .bf16 = 32 ∨ (Rect.block (s := S1024x5120) S1024x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5120.size a ≤ S5120.size a
  hwx0_4 : ∀ i : grid0.Coords, EltTy.bits .f32 = 32 ∨ (Rect.block (s := S5120) S5120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5x8x32x1024.size a ≤ S5x512x32x1024.size a
  hwx0_5 : ∀ i : grid0.Coords, EltTy.bits .f32 = 32 ∨ (Rect.block (s := S5x512x32x1024) S5x8x32x1024.size (cc0_transform_5 i) (hinb0_5 i)).WholeWords (EltTy.packing .f32)

variable [Facts₀]

def gather_S1001x1024_S512x32x1_S512x32x1024_2_0_n_n_0_2_11024 : GatherDims S1001x1024 S512x32x1 S512x32x1024 where
  offsetDims := [2]
  collapsedSliceDims := [0]
  operandBatchingDims := []
  startIndicesBatchingDims := []
  startIndexMap := [0]
  indexVectorDim := 2
  sliceSizes := ![1, 1024]
  wf := gather_S1001x1024_S512x32x1_S512x32x1024_2_0_n_n_0_2_11024_wf
def dot_S256x1024_S1024x5120_S256x5120_1_0_0_1_n_n : DotDims S256x1024 S1024x5120 S256x5120 where
  lhsContracting := [1]
  rhsContracting := [0]
  lhsNonContracting := [0]
  rhsNonContracting := [1]
  lhsBatch := []
  rhsBatch := []
  wf := dot_S256x1024_S1024x5120_S256x5120_1_0_0_1_n_n_wf

abbrev win0_0 : Pipeline.Window sig grid0 :=
  Pipeline.Window.ofSpec (Memref.whole main_v2) S8x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x5120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5x8x32x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512 : Shape := ⟨2, ![32, 512]⟩
abbrev S1001x1024 : Shape := ⟨2, ![1001, 1024]⟩
abbrev S7168x2048 : Shape := ⟨2, ![7168, 2048]⟩
abbrev S7168 : Shape := ⟨1, ![7168]⟩
abbrev S512x32 : Shape := ⟨2, ![512, 32]⟩
abbrev S_ : Shape := ⟨0, ![]⟩
abbrev S512x32x1 : Shape := ⟨3, ![512, 32, 1]⟩
abbrev S512x32x1024 : Shape := ⟨3, ![512, 32, 1024]⟩
abbrev S7168x1024 : Shape := ⟨2, ![7168, 1024]⟩
abbrev S512x32x7168 : Shape := ⟨3, ![512, 32, 7168]⟩
abbrev S1x1x7168 : Shape := ⟨3, ![1, 1, 7168]⟩
abbrev S1x512x32x1024 : Shape := ⟨4, ![1, 512, 32, 1024]⟩
abbrev S5x512x32x1024 : Shape := ⟨4, ![5, 512, 32, 1024]⟩

abbrev nBuf : Space → Nat
  | .hbm => 85
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x512, .f32⟩
  | .hbm, ⟨2, _⟩ => ⟨S1001x1024, .f32⟩
  | .hbm, ⟨3, _⟩ => ⟨S7168x2048, .f32⟩
  | .hbm, ⟨4, _⟩ => ⟨S7168, .f32⟩
  | .hbm, ⟨5, _⟩ => ⟨S512x32, .i32⟩
  | .hbm, ⟨6, _⟩ => ⟨S512x32, .f32⟩
  | .hbm, ⟨7, _⟩ => ⟨S_, .i32⟩
  | .hbm, ⟨8, _⟩ => ⟨S512x32, .i32⟩
  | .hbm, ⟨9, _⟩ => ⟨S512x32, .i1⟩
  | .hbm, ⟨10, _⟩ => ⟨S_, .i32⟩
  | .hbm, ⟨11, _⟩ => ⟨S512x32, .i32⟩
  | .hbm, ⟨12, _⟩ => ⟨S512x32, .i32⟩
  | .hbm, ⟨13, _⟩ => ⟨S512x32, .i32⟩
  | .hbm, ⟨14, _⟩ => ⟨S512x32x1, .i32⟩
  | .hbm, ⟨15, _⟩ => ⟨S512x32x1024, .f32⟩
  | .hbm, ⟨16, _⟩ => ⟨S7168x1024, .f32⟩
  | .hbm, ⟨17, _⟩ => ⟨S512x32x7168, .f32⟩
  | .hbm, ⟨18, _⟩ => ⟨S1x1x7168, .f32⟩
  | .hbm, ⟨19, _⟩ => ⟨S512x32x7168, .f32⟩
  | .hbm, ⟨20, _⟩ => ⟨S512x32x7168, .f32⟩
  | .hbm, ⟨21, _⟩ => ⟨S512x32x1024, .f32⟩
  | .hbm, ⟨22, _⟩ => ⟨S512x32x1024, .f32⟩
  | .hbm, ⟨23, _⟩ => ⟨S512x32x1024, .f32⟩
  | .hbm, ⟨24, _⟩ => ⟨S512x32x1024, .f32⟩
  | .hbm, ⟨25, _⟩ => ⟨S512x32x1024, .f32⟩
  | .hbm, ⟨26, _⟩ => ⟨S512x32x1024, .f32⟩
  | .hbm, ⟨27, _⟩ => ⟨S512x32x1024, .f32⟩
  | .hbm, ⟨28, _⟩ => ⟨S512x32x1024, .f32⟩
  | .hbm, ⟨29, _⟩ => ⟨S512x32x1024, .f32⟩
  | .hbm, ⟨30, _⟩ => ⟨S_, .f32⟩
  | .hbm, ⟨31, _⟩ => ⟨S512x32x1024, .f32⟩
  | .hbm, ⟨32, _⟩ => ⟨S512x32x1024, .f32⟩
  | .hbm, ⟨33, _⟩ => ⟨S_, .f32⟩
  | .hbm, ⟨34, _⟩ => ⟨S512x32x1024, .f32⟩
  | .hbm, ⟨35, _⟩ => ⟨S512x32x1024, .f32⟩
  | .hbm, ⟨36, _⟩ => ⟨S512x32x1024, .f32⟩
  | .hbm, ⟨37, _⟩ => ⟨S512x32x1024, .f32⟩
  | .hbm, ⟨38, _⟩ => ⟨S512x32x1024, .f32⟩
  | .hbm, ⟨39, _⟩ => ⟨S_, .f32⟩
  | .hbm, ⟨40, _⟩ => ⟨S512x32x1024, .f32⟩
  | .hbm, ⟨41, _⟩ => ⟨S512x32x1024, .f32⟩
  | .hbm, ⟨42, _⟩ => ⟨S_, .f32⟩
  | .hbm, ⟨43, _⟩ => ⟨S512x32x1024, .f32⟩
  | .hbm, ⟨44, _⟩ => ⟨S512x32x1024, .f32⟩
  | .hbm, ⟨45, _⟩ => ⟨S512x32x1024, .f32⟩
  | .hbm, ⟨46, _⟩ => ⟨S512x32x1024, .f32⟩
  | .hbm, ⟨47, _⟩ => ⟨S_, .f32⟩
  | .hbm, ⟨48, _⟩ => ⟨S512x32x1024, .f32⟩
  | .hbm, ⟨49, _⟩ => ⟨S512x32x1024, .f32⟩
  | .hbm, ⟨50, _⟩ => ⟨S_, .f32⟩
  | .hbm, ⟨51, _⟩ => ⟨S512x32x1024, .f32⟩
  | .hbm, ⟨52, _⟩ => ⟨S512x32x1024, .f32⟩
  | .hbm, ⟨53, _⟩ => ⟨S_, .f32⟩
  | .hbm, ⟨54, _⟩ => ⟨S512x32x1024, .f32⟩
  | .hbm, ⟨55, _⟩ => ⟨S512x32x1024, .f32⟩
  | .hbm, ⟨56, _⟩ => ⟨S512x32x1024, .f32⟩
  | .hbm, ⟨57, _⟩ => ⟨S512x32x1024, .f32⟩
  | .hbm, ⟨58, _⟩ => ⟨S512x32x1024, .i1⟩
  | .hbm, ⟨59, _⟩ => ⟨S512x32x1024, .f32⟩
  | .hbm, ⟨60, _⟩ => ⟨S512x32x1024, .f32⟩
  | .hbm, ⟨61, _⟩ => ⟨S512x32x1024, .f32⟩
  | .hbm, ⟨62, _⟩ => ⟨S512x32x1024, .f32⟩
  | .hbm, ⟨63, _⟩ => ⟨S512x32x1024, .f32⟩
  | .hbm, ⟨64, _⟩ => ⟨S512x32x1024, .f32⟩
  | .hbm, ⟨65, _⟩ => ⟨S512x32x1024, .f32⟩
  | .hbm, ⟨66, _⟩ => ⟨S512x32x1024, .f32⟩
  | .hbm, ⟨67, _⟩ => ⟨S512x32x1024, .f32⟩
  | .hbm, ⟨68, _⟩ => ⟨S512x32x1024, .f32⟩
  | .hbm, ⟨69, _⟩ => ⟨S512x32x1024, .f32⟩
  | .hbm, ⟨70, _⟩ => ⟨S512x32x1024, .f32⟩
  | .hbm, ⟨71, _⟩ => ⟨S512x32x1, .f32⟩
  | .hbm, ⟨72, _⟩ => ⟨S512x32x1024, .f32⟩
  | .hbm, ⟨73, _⟩ => ⟨S512x32x1024, .f32⟩
  | .hbm, ⟨74, _⟩ => ⟨S512x32x1024, .f32⟩
  | .hbm, ⟨75, _⟩ => ⟨S512x32x1024, .f32⟩
  | .hbm, ⟨76, _⟩ => ⟨S512x32x1024, .f32⟩
  | .hbm, ⟨77, _⟩ => ⟨S512x32x1024, .f32⟩
  | .hbm, ⟨78, _⟩ => ⟨S512x32x1024, .f32⟩
  | .hbm, ⟨79, _⟩ => ⟨S1x512x32x1024, .f32⟩
  | .hbm, ⟨80, _⟩ => ⟨S1x512x32x1024, .f32⟩
  | .hbm, ⟨81, _⟩ => ⟨S1x512x32x1024, .f32⟩
  | .hbm, ⟨82, _⟩ => ⟨S1x512x32x1024, .f32⟩
  | .hbm, ⟨83, _⟩ => ⟨S1x512x32x1024, .f32⟩
  | .hbm, ⟨84, _⟩ => ⟨S5x512x32x1024, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  transposes_S32x512_S512x32_1_0 : S32x512.Transposes [1, 0] S512x32
  bcast_S_S512x32 : S_.BroadcastsInDim S512x32 (![] : Fin 0 → Fin S512x32.rank)
  bcast_S512x32_S512x32x1_0_1 : S512x32.BroadcastsInDim S512x32x1 (![0, 1] : Fin 2 → Fin S512x32x1.rank)
  slices_S7168x2048_S7168x1024_0_0 : S7168x2048.Slices ![0, 0] S7168x1024
  bcast_S7168_S1x1x7168_2 : S7168.BroadcastsInDim S1x1x7168 (![2] : Fin 1 → Fin S1x1x7168.rank)
  bcast_S1x1x7168_S512x32x7168_0_1_2 : S1x1x7168.BroadcastsInDim S512x32x7168 (![0, 1, 2] : Fin 3 → Fin S512x32x7168.rank)
  slices_S512x32x7168_S512x32x1024_0_0_0 : S512x32x7168.Slices ![0, 0, 0] S512x32x1024
  slices_S512x32x7168_S512x32x1024_0_0_1024 : S512x32x7168.Slices ![0, 0, 1024] S512x32x1024
  slices_S512x32x7168_S512x32x1024_0_0_2048 : S512x32x7168.Slices ![0, 0, 2048] S512x32x1024
  slices_S512x32x7168_S512x32x1024_0_0_3072 : S512x32x7168.Slices ![0, 0, 3072] S512x32x1024
  slices_S512x32x7168_S512x32x1024_0_0_4096 : S512x32x7168.Slices ![0, 0, 4096] S512x32x1024
  slices_S512x32x7168_S512x32x1024_0_0_5120 : S512x32x7168.Slices ![0, 0, 5120] S512x32x1024
  slices_S512x32x7168_S512x32x1024_0_0_6144 : S512x32x7168.Slices ![0, 0, 6144] S512x32x1024
  bcast_S_S512x32x1024 : S_.BroadcastsInDim S512x32x1024 (![] : Fin 0 → Fin S512x32x1024.rank)
  bcast_S512x32x1_S512x32x1024_0_1_2 : S512x32x1.BroadcastsInDim S512x32x1024 (![0, 1, 2] : Fin 3 → Fin S512x32x1024.rank)
  bcast_S512x32x1024_S1x512x32x1024_1_2_3 : S512x32x1024.BroadcastsInDim S1x512x32x1024 (![1, 2, 3] : Fin 3 → Fin S1x512x32x1024.rank)
  concatenates_S1x512x32x1024_S1x512x32x1024_S1x512x32x1024_S1x512x32x1024_S1x512x32x1024_S5x512x32x1024_d0 : Shape.Concatenates [S1x512x32x1024, S1x512x32x1024, S1x512x32x1024, S1x512x32x1024, S1x512x32x1024] S5x512x32x1024 0
  gather_S1001x1024_S512x32x1_S512x32x1024_2_0_n_n_0_2_11024_wf : GatherDims.WF S1001x1024 S512x32x1 S512x32x1024 [2] [0] [] [0] [] 2 ![1, 1024]
  dot_S512x32x1024_S7168x1024_S512x32x7168_2_1_01_0_n_n_wf : DotDims.WF S512x32x1024 S7168x1024 S512x32x7168 [2] [1] [0, 1] [0] [] []

variable [Facts₀]

def gather_S1001x1024_S512x32x1_S512x32x1024_2_0_n_n_0_2_11024 : GatherDims S1001x1024 S512x32x1 S512x32x1024 where
  offsetDims := [2]
  collapsedSliceDims := [0]
  operandBatchingDims := []
  startIndicesBatchingDims := []
  startIndexMap := [0]
  indexVectorDim := 2
  sliceSizes := ![1, 1024]
  wf := gather_S1001x1024_S512x32x1_S512x32x1024_2_0_n_n_0_2_11024_wf
def dot_S512x32x1024_S7168x1024_S512x32x7168_2_1_01_0_n_n : DotDims S512x32x1024 S7168x1024 S512x32x7168 where
  lhsContracting := [2]
  rhsContracting := [1]
  lhsNonContracting := [0, 1]
  rhsNonContracting := [0]
  lhsBatch := []
  rhsBatch := []
  wf := dot_S512x32x1024_S7168x1024_S512x32x7168_2_1_01_0_n_n_wf

class Facts : Prop extends Facts₀ where

variable [Facts]
-- ==== Proof.FrameK.lean ====
/-
  The frame of `Kernel`: every weakly fair execution of @main terminates without a fault, and the argument
  arrays end as launched; and, beyond the frame, what the result array holds at the end.

  @main is three stretches of host operations followed by one pipelined region over 64 grid points. At grid point
  `t` the body reads its five input blocks (eight time steps of the embedded rows, the same eight time steps of
  the durations, the two weight matrices and the bias whole) and overwrites the whole output block
  [5, 8, 32, 1024] by five stores, one per stacked result, each a slab [1, 8, 32, 1024]. The five slabs tile the
  block, so the block after the body is the canonical form of those five stores, a function of the five input
  blocks alone (`out5`). The loads the body makes of the output block before each store are never used.

  No argument array is staged by a window (the windows stage arrays the host operations computed), and no host
  operation writes an argument, so each argument is found at the end as it was launched.
-/
import proofs.«419382_j50010599194914_3_alg».proof.Proof.Gen.Kernel.Launch
import proofs.«419382_j50010599194914_3_alg».proof.Proof.Gen.Kernel.Skeleton
import proofs.«419382_j50010599194914_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the argument `a`: the region finds it as launched. -/
theorem V_arg (c : Dev nD) (a : Ref sig .tc)
    (ha : a = main_arg0 ∨ a = main_arg1 ∨ a = main_arg2 ∨ a = main_arg3 ∨ a = main_arg4) :
    V m c a = m ((c : Thread nD τ).loc a) :=
  StableHlo.after_of_forall_not_mem (b := Proc.devRef .tc a) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    rcases ha with rfl | rfl | rfl | rfl | rfl <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the last fetch. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rx : Rect S8x32x1024 := Rect.unit (s := S8x32x1024) ![0, 0, 0] S8x32x1024.size inb_S8x32x1024_S8x32x1024_0_0_0
abbrev rd : Rect S8x32 := Rect.unit (s := S8x32) ![0, 0] S8x32.size inb_S8x32_S8x32_0_0
abbrev rw_ : Rect S1024x5120 := Rect.unit (s := S1024x5120) ![0, 0] S1024x5120.size inb_S1024x5120_S1024x5120_0_0
abbrev rb : Rect S5120 := Rect.unit (s := S5120) ![0] S5120.size inb_S5120_S5120_0
abbrev ro0 : Rect S5x8x32x1024 := Rect.unit (s := S5x8x32x1024) ![0, 0, 0, 0] S1x8x32x1024.size inb_S5x8x32x1024_S1x8x32x1024_0_0_0_0
abbrev ro1 : Rect S5x8x32x1024 := Rect.unit (s := S5x8x32x1024) ![1, 0, 0, 0] S1x8x32x1024.size inb_S5x8x32x1024_S1x8x32x1024_1_0_0_0
abbrev ro2 : Rect S5x8x32x1024 := Rect.unit (s := S5x8x32x1024) ![2, 0, 0, 0] S1x8x32x1024.size inb_S5x8x32x1024_S1x8x32x1024_2_0_0_0
abbrev ro3 : Rect S5x8x32x1024 := Rect.unit (s := S5x8x32x1024) ![3, 0, 0, 0] S1x8x32x1024.size inb_S5x8x32x1024_S1x8x32x1024_3_0_0_0
abbrev ro4 : Rect S5x8x32x1024 := Rect.unit (s := S5x8x32x1024) ![4, 0, 0, 0] S1x8x32x1024.size inb_S5x8x32x1024_S1x8x32x1024_4_0_0_0

/-! ## What the body leaves in the output window's buffer -/

/-- The five slabs the body stores, last store first, as functions of the five input blocks: the decayed hidden state,
    the cell, the cell target, the output gate and the decay rate. -/
def pieces5 (x : Vec F S8x32x1024 .f32) (du : Vec F S8x32 .f32) (wh wl : Vec F S1024x5120 .bf16) (b : Vec F S5120 .f32) :
    List (View.Piece (Elt F) S5x8x32x1024 .f32) :=
  [⟨ro4, k0_pay19 (k0_pay7 (View.ld x rx) (View.ld wh rw_) (View.ld wl rw_) (View.ld b rb)) (k0_pay9 (View.ld x rx) (View.ld wh rw_) (View.ld wl rw_) (View.ld b rb))
      (k0_pay10 (View.ld x rx) (View.ld wh rw_) (View.ld wl rw_) (View.ld b rb)) (k0_pay11 (View.ld x rx) (View.ld wh rw_) (View.ld wl rw_) (View.ld b rb))⟩,
   ⟨ro3, k0_pay18 (k0_pay5 (View.ld x rx) (View.ld wh rw_) (View.ld wl rw_) (View.ld b rb))⟩,
   ⟨ro2, k0_pay17 (k0_pay4 (View.ld x rx) (View.ld wh rw_) (View.ld wl rw_) (View.ld b rb)) (k0_pay6 (View.ld x rx) (View.ld wh rw_) (View.ld wl rw_) (View.ld b rb))⟩,
   ⟨ro1, k0_pay16 (k0_pay3 (View.ld x rx) (View.ld wh rw_) (View.ld wl rw_) (View.ld b rb)) (k0_pay4 (View.ld x rx) (View.ld wh rw_) (View.ld wl rw_) (View.ld b rb))⟩,
   ⟨ro0, k0_pay15 (k0_pay3 (View.ld x rx) (View.ld wh rw_) (View.ld wl rw_) (View.ld b rb)) (k0_pay4 (View.ld x rx) (View.ld wh rw_) (View.ld wl rw_) (View.ld b rb))
      (k0_pay5 (View.ld x rx) (View.ld wh rw_) (View.ld wl rw_) (View.ld b rb)) (k0_pay6 (View.ld x rx) (View.ld wh rw_) (View.ld wl rw_) (View.ld b rb))
      (k0_pay7 (View.ld x rx) (View.ld wh rw_) (View.ld wl rw_) (View.ld b rb)) (k0_pay9 (View.ld x rx) (View.ld wh rw_) (View.ld wl rw_) (View.ld b rb))
      (k0_pay10 (View.ld x rx) (View.ld wh rw_) (View.ld wl rw_) (View.ld b rb)) (k0_pay11 (View.ld x rx) (View.ld wh rw_) (View.ld wl rw_) (View.ld b rb)) (View.ld du rd)⟩]

/-- The output window's buffer after the body. -/
def out5 (x : Vec F S8x32x1024 .f32) (du : Vec F S8x32 .f32) (wh wl : Vec F S1024x5120 .bf16) (b : Vec F S5120 .f32) : Vec F S5x8x32x1024 .f32 :=
  View.canon (pieces5 x du wh wl b)

/-- Five slabs along the leading axis tile the block, so they cover it. -/
theorem cover5 (p4 p3 p2 p1 p0 : Vec F S1x8x32x1024 .f32) (y : S5x8x32x1024.Idx) :
    ∃ pc ∈ ([⟨ro4, p4⟩, ⟨ro3, p3⟩, ⟨ro2, p2⟩, ⟨ro1, p1⟩, ⟨ro0, p0⟩] : List (View.Piece (Elt F) S5x8x32x1024 .f32)), y ∈ pc.1.set :=
  View.cover_of_tiled [⟨ro4, p4⟩, ⟨ro3, p3⟩, ⟨ro2, p2⟩, ⟨ro1, p1⟩, ⟨ro0, p0⟩] S1x8x32x1024.size (by rfl) y

/-! ## The body's triple -/

set_option maxHeartbeats 4000000 in
/-- The body on whole staging memrefs, the inputs' at contents `x … b` and the output's at anything, runs to the
    continuation holding the inputs as they were and the output's buffer at `out5` of them. -/
theorem sound_kernel (c : Dev nD) (E : Set ℕ) (i : grid0.Coords)
    (arg1 : Memref sig .tc .vmem S8x32x1024 .f32) (harg1 : arg1.IsWhole) (arg2 : Memref sig .tc .vmem S8x32 .f32) (harg2 : arg2.IsWhole)
    (arg3 : Memref sig .tc .vmem S1024x5120 .bf16) (harg3 : arg3.IsWhole) (arg4 : Memref sig .tc .vmem S1024x5120 .bf16) (harg4 : arg4.IsWhole)
    (arg5 : Memref sig .tc .vmem S5120 .f32) (harg5 : arg5.IsWhole) (arg6 : Memref sig .tc .vmem S5x8x32x1024 .f32) (harg6 : arg6.IsWhole)
    (x : Vec F S8x32x1024 .f32) (du : Vec F S8x32 .f32) (wh wl : Vec F S1024x5120 .bf16) (b : Vec F S5120 .f32) (K : PUnit → sProp 𝕄) :
    iprop(owns (c : Thread nD τ) arg1 fullShare x ∗ owns (c : Thread nD τ) arg2 fullShare du ∗ owns (c : Thread nD τ) arg3 fullShare wh
        ∗ owns (c : Thread nD τ) arg4 fullShare wl ∗ owns (c : Thread nD τ) arg5 fullShare b ∗ (∃ d, owns (c : Thread nD τ) arg6 fullShare d)
        ∗ (iprop(owns (c : Thread nD τ) arg1 fullShare x ∗ owns (c : Thread nD τ) arg2 fullShare du ∗ owns (c : Thread nD τ) arg3 fullShare wh
            ∗ owns (c : Thread nD τ) arg4 fullShare wl ∗ owns (c : Thread nD τ) arg5 fullShare b
            ∗ owns (c : Thread nD τ) arg6 fullShare (out5 x du wh wl b)) -∗ K ⟨⟩))
      ⊢ wp frame (wpE (defs₀ (F := F)) Variants.none c none) E (cc0__ctlstm_kernel i arg1 harg1 arg2 harg2 arg3 harg3 arg4 harg4 arg5 harg5 arg6 harg6) K := by
  simp only [cc0__ctlstm_kernel_eq_skeleton]; unfold cc0__ctlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _)

/-! ## The pipeline's proof data -/

/-- The proof data of the pipeline on core `c`: the arrays as the region finds them; after the body at point `t` each
    input's buffer at its block and the output's at `out5` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at what the
    proof data says was written back, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN, with the result array named and the arguments as launched: the result array ends at what the sixty-four
    blocks written back make of the array the region found, and each argument array ends as it was launched. -/
theorem run_named : θ_run defs (onTc (τ := τ) (main (F := F))) ⟨m, fun _ => 0, ρ⟩ (fun r => ∀ c : Dev nD,
      r.2.mem ((c.tc : Thread nD τ).loc main_v21) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).2 main_arg0 (Pipeline.mem_restRefs_of main_arg0 (by decide) (by decide))).trans (V_arg m c _ (.inl rfl)),
      ((h c).2 main_arg1 (Pipeline.mem_restRefs_of main_arg1 (by decide) (by decide))).trans (V_arg m c _ (.inr (.inl rfl))),
      ((h c).2 main_arg2 (Pipeline.mem_restRefs_of main_arg2 (by decide) (by decide))).trans (V_arg m c _ (.inr (.inr (.inl rfl)))),
      ((h c).2 main_arg3 (Pipeline.mem_restRefs_of main_arg3 (by decide) (by decide))).trans (V_arg m c _ (.inr (.inr (.inr (.inl rfl))))),
      ((h c).2 main_arg4 (Pipeline.mem_restRefs_of main_arg4 (by decide) (by decide))).trans (V_arg m c _ (.inr (.inr (.inr (.inr rfl)))))⟩) (run_main m ρ)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Frame

end
-- ==== Proof.FrameI.lean ====
/-
  The frame of `KernelIdeal`: every weakly fair execution of @main terminates without a fault, and the argument
  arrays end as launched; and, beyond the frame, what the result array holds at the end.

  @main is three stretches of host operations followed by one pipelined region over 64 grid points. At grid point
  `t` the body reads its five input blocks (eight time steps of the embedded rows, the same eight time steps of
  the durations, the two weight matrices and the bias whole) and overwrites the whole output block
  [5, 8, 32, 1024] by five stores, one per stacked result, each a slab [1, 8, 32, 1024]. The five slabs tile the
  block, so the block after the body is the canonical form of those five stores, a function of the five input
  blocks alone (`out5`). The loads the body makes of the output block before each store are never used.

  No argument array is staged by a window (the windows stage arrays the host operations computed), and no host
  operation writes an argument, so each argument is found at the end as it was launched.
-/
import proofs.«419382_j50010599194914_3_alg».proof.Proof.Gen.KernelIdeal.Launch
import proofs.«419382_j50010599194914_3_alg».proof.Proof.Gen.KernelIdeal.Skeleton
import proofs.«419382_j50010599194914_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the argument `a`: the region finds it as launched. -/
theorem V_arg (c : Dev nD) (a : Ref sig .tc)
    (ha : a = main_arg0 ∨ a = main_arg1 ∨ a = main_arg2 ∨ a = main_arg3 ∨ a = main_arg4) :
    V m c a = m ((c : Thread nD τ).loc a) :=
  StableHlo.after_of_forall_not_mem (b := Proc.devRef .tc a) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    rcases ha with rfl | rfl | rfl | rfl | rfl <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the last fetch. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rx : Rect S8x32x1024 := Rect.unit (s := S8x32x1024) ![0, 0, 0] S8x32x1024.size inb_S8x32x1024_S8x32x1024_0_0_0
abbrev rd : Rect S8x32 := Rect.unit (s := S8x32) ![0, 0] S8x32.size inb_S8x32_S8x32_0_0
abbrev rw_ : Rect S1024x5120 := Rect.unit (s := S1024x5120) ![0, 0] S1024x5120.size inb_S1024x5120_S1024x5120_0_0
abbrev rb : Rect S5120 := Rect.unit (s := S5120) ![0] S5120.size inb_S5120_S5120_0
abbrev ro0 : Rect S5x8x32x1024 := Rect.unit (s := S5x8x32x1024) ![0, 0, 0, 0] S1x8x32x1024.size inb_S5x8x32x1024_S1x8x32x1024_0_0_0_0
abbrev ro1 : Rect S5x8x32x1024 := Rect.unit (s := S5x8x32x1024) ![1, 0, 0, 0] S1x8x32x1024.size inb_S5x8x32x1024_S1x8x32x1024_1_0_0_0
abbrev ro2 : Rect S5x8x32x1024 := Rect.unit (s := S5x8x32x1024) ![2, 0, 0, 0] S1x8x32x1024.size inb_S5x8x32x1024_S1x8x32x1024_2_0_0_0
abbrev ro3 : Rect S5x8x32x1024 := Rect.unit (s := S5x8x32x1024) ![3, 0, 0, 0] S1x8x32x1024.size inb_S5x8x32x1024_S1x8x32x1024_3_0_0_0
abbrev ro4 : Rect S5x8x32x1024 := Rect.unit (s := S5x8x32x1024) ![4, 0, 0, 0] S1x8x32x1024.size inb_S5x8x32x1024_S1x8x32x1024_4_0_0_0

/-! ## What the body leaves in the output window's buffer -/

/-- The five slabs the body stores, last store first, as functions of the five input blocks: the decayed hidden state,
    the cell, the cell target, the output gate and the decay rate. -/
def pieces5 (x : Vec F S8x32x1024 .f32) (du : Vec F S8x32 .f32) (wh wl : Vec F S1024x5120 .bf16) (b : Vec F S5120 .f32) :
    List (View.Piece (Elt F) S5x8x32x1024 .f32) :=
  [⟨ro4, k0_pay19 (k0_pay7 (View.ld x rx) (View.ld wh rw_) (View.ld wl rw_) (View.ld b rb)) (k0_pay9 (View.ld x rx) (View.ld wh rw_) (View.ld wl rw_) (View.ld b rb))
      (k0_pay10 (View.ld x rx) (View.ld wh rw_) (View.ld wl rw_) (View.ld b rb)) (k0_pay11 (View.ld x rx) (View.ld wh rw_) (View.ld wl rw_) (View.ld b rb))⟩,
   ⟨ro3, k0_pay18 (k0_pay5 (View.ld x rx) (View.ld wh rw_) (View.ld wl rw_) (View.ld b rb))⟩,
   ⟨ro2, k0_pay17 (k0_pay4 (View.ld x rx) (View.ld wh rw_) (View.ld wl rw_) (View.ld b rb)) (k0_pay6 (View.ld x rx) (View.ld wh rw_) (View.ld wl rw_) (View.ld b rb))⟩,
   ⟨ro1, k0_pay16 (k0_pay3 (View.ld x rx) (View.ld wh rw_) (View.ld wl rw_) (View.ld b rb)) (k0_pay4 (View.ld x rx) (View.ld wh rw_) (View.ld wl rw_) (View.ld b rb))⟩,
   ⟨ro0, k0_pay15 (k0_pay3 (View.ld x rx) (View.ld wh rw_) (View.ld wl rw_) (View.ld b rb)) (k0_pay4 (View.ld x rx) (View.ld wh rw_) (View.ld wl rw_) (View.ld b rb))
      (k0_pay5 (View.ld x rx) (View.ld wh rw_) (View.ld wl rw_) (View.ld b rb)) (k0_pay6 (View.ld x rx) (View.ld wh rw_) (View.ld wl rw_) (View.ld b rb))
      (k0_pay7 (View.ld x rx) (View.ld wh rw_) (View.ld wl rw_) (View.ld b rb)) (k0_pay9 (View.ld x rx) (View.ld wh rw_) (View.ld wl rw_) (View.ld b rb))
      (k0_pay10 (View.ld x rx) (View.ld wh rw_) (View.ld wl rw_) (View.ld b rb)) (k0_pay11 (View.ld x rx) (View.ld wh rw_) (View.ld wl rw_) (View.ld b rb)) (View.ld du rd)⟩]

/-- The output window's buffer after the body. -/
def out5 (x : Vec F S8x32x1024 .f32) (du : Vec F S8x32 .f32) (wh wl : Vec F S1024x5120 .bf16) (b : Vec F S5120 .f32) : Vec F S5x8x32x1024 .f32 :=
  View.canon (pieces5 x du wh wl b)

/-- Five slabs along the leading axis tile the block, so they cover it. -/
theorem cover5 (p4 p3 p2 p1 p0 : Vec F S1x8x32x1024 .f32) (y : S5x8x32x1024.Idx) :
    ∃ pc ∈ ([⟨ro4, p4⟩, ⟨ro3, p3⟩, ⟨ro2, p2⟩, ⟨ro1, p1⟩, ⟨ro0, p0⟩] : List (View.Piece (Elt F) S5x8x32x1024 .f32)), y ∈ pc.1.set :=
  View.cover_of_tiled [⟨ro4, p4⟩, ⟨ro3, p3⟩, ⟨ro2, p2⟩, ⟨ro1, p1⟩, ⟨ro0, p0⟩] S1x8x32x1024.size (by rfl) y

/-! ## The body's triple -/

set_option maxHeartbeats 4000000 in
/-- The body on whole staging memrefs, the inputs' at contents `x … b` and the output's at anything, runs to the
    continuation holding the inputs as they were and the output's buffer at `out5` of them. -/
theorem sound_kernel (c : Dev nD) (E : Set ℕ) (i : grid0.Coords)
    (arg1 : Memref sig .tc .vmem S8x32x1024 .f32) (harg1 : arg1.IsWhole) (arg2 : Memref sig .tc .vmem S8x32 .f32) (harg2 : arg2.IsWhole)
    (arg3 : Memref sig .tc .vmem S1024x5120 .bf16) (harg3 : arg3.IsWhole) (arg4 : Memref sig .tc .vmem S1024x5120 .bf16) (harg4 : arg4.IsWhole)
    (arg5 : Memref sig .tc .vmem S5120 .f32) (harg5 : arg5.IsWhole) (arg6 : Memref sig .tc .vmem S5x8x32x1024 .f32) (harg6 : arg6.IsWhole)
    (x : Vec F S8x32x1024 .f32) (du : Vec F S8x32 .f32) (wh wl : Vec F S1024x5120 .bf16) (b : Vec F S5120 .f32) (K : PUnit → sProp 𝕄) :
    iprop(owns (c : Thread nD τ) arg1 fullShare x ∗ owns (c : Thread nD τ) arg2 fullShare du ∗ owns (c : Thread nD τ) arg3 fullShare wh
        ∗ owns (c : Thread nD τ) arg4 fullShare wl ∗ owns (c : Thread nD τ) arg5 fullShare b ∗ (∃ d, owns (c : Thread nD τ) arg6 fullShare d)
        ∗ (iprop(owns (c : Thread nD τ) arg1 fullShare x ∗ owns (c : Thread nD τ) arg2 fullShare du ∗ owns (c : Thread nD τ) arg3 fullShare wh
            ∗ owns (c : Thread nD τ) arg4 fullShare wl ∗ owns (c : Thread nD τ) arg5 fullShare b
            ∗ owns (c : Thread nD τ) arg6 fullShare (out5 x du wh wl b)) -∗ K ⟨⟩))
      ⊢ wp frame (wpE (defs₀ (F := F)) Variants.none c none) E (cc0__ctlstm_kernel i arg1 harg1 arg2 harg2 arg3 harg3 arg4 harg4 arg5 harg5 arg6 harg6) K := by
  simp only [cc0__ctlstm_kernel_eq_skeleton]; unfold cc0__ctlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _)

/-! ## The pipeline's proof data -/

/-- The proof data of the pipeline on core `c`: the arrays as the region finds them; after the body at point `t` each
    input's buffer at its block and the output's at `out5` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at what the
    proof data says was written back, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN, with the result array named and the arguments as launched: the result array ends at what the sixty-four
    blocks written back make of the array the region found, and each argument array ends as it was launched. -/
theorem run_named : θ_run defs (onTc (τ := τ) (main (F := F))) ⟨m, fun _ => 0, ρ⟩ (fun r => ∀ c : Dev nD,
      r.2.mem ((c.tc : Thread nD τ).loc main_v21) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).2 main_arg0 (Pipeline.mem_restRefs_of main_arg0 (by decide) (by decide))).trans (V_arg m c _ (.inl rfl)),
      ((h c).2 main_arg1 (Pipeline.mem_restRefs_of main_arg1 (by decide) (by decide))).trans (V_arg m c _ (.inr (.inl rfl))),
      ((h c).2 main_arg2 (Pipeline.mem_restRefs_of main_arg2 (by decide) (by decide))).trans (V_arg m c _ (.inr (.inr (.inl rfl)))),
      ((h c).2 main_arg3 (Pipeline.mem_restRefs_of main_arg3 (by decide) (by decide))).trans (V_arg m c _ (.inr (.inr (.inr (.inl rfl))))),
      ((h c).2 main_arg4 (Pipeline.mem_restRefs_of main_arg4 (by decide) (by decide))).trans (V_arg m c _ (.inr (.inr (.inr (.inr rfl)))))⟩) (run_main m ρ)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Frame

end
-- ==== Proof.Staged.lean ====
/-
  Names, at their literal types, for the five argument arrays as launched and for the five arrays the region's windows
  stage as the region finds them (after the host operations), on one core at the extended reals.
-/
import proofs.«419382_j50010599194914_3_alg».proof.Proof.FrameI
import Idealize.ShloMosaic.PureOps.Ideal

noncomputable section

namespace Cert.KernelIdeal.Staged

open Cert.KernelIdeal Cert.KernelIdeal.Gen Cert.KernelIdeal.Frame Idealize.ShloMosaic Idealize.ShloMosaic.TcCoe Idealize.SL.Sem

variable (m : (ℓ : Loc nD τ sig) → Buf (Elt Ideal) ℓ) (c : Dev nD)

/-- The event numbers `[32, 512]`. -/
abbrev evArg : IVec S32x512 32 := m ((c.tc : Thread nD τ).loc main_arg0)
/-- The durations `[32, 512]`. -/
abbrev durArg : S32x512.Idx → EReal := m ((c.tc : Thread nD τ).loc main_arg1)
/-- The embedding table `[1001, 1024]`. -/
abbrev tblArg : S1001x1024.Idx → EReal := m ((c.tc : Thread nD τ).loc main_arg2)
/-- The weights `[7168, 2048]`. -/
abbrev wArg : S7168x2048.Idx → EReal := m ((c.tc : Thread nD τ).loc main_arg3)
/-- The bias `[7168]`. -/
abbrev bArg : S7168.Idx → EReal := m ((c.tc : Thread nD τ).loc main_arg4)

/-- Window 0's array: the embedded rows `[512, 32, 1024]`. -/
abbrev xArr : S512x32x1024.Idx → EReal := V m c main_v2
/-- Window 1's array: the durations transposed `[512, 32]`. -/
abbrev durArr : S512x32.Idx → EReal := V m c main_v1
/-- Window 2's array: the high-order half of the live weights `[1024, 5120]`. -/
abbrev whiArr : S1024x5120.Idx → EReal := V m c main_v17
/-- Window 3's array: the low-order half of the live weights `[1024, 5120]`. -/
abbrev wloArr : S1024x5120.Idx → EReal := V m c main_v20
/-- Window 4's array: the live bias `[5120]`. -/
abbrev biasArr : S5120.Idx → EReal := V m c main_v15

end Cert.KernelIdeal.Staged

end
-- ==== Proof.Spec.lean ====
/-
  What both programs compute, as ONE function of the five argument arrays, index by index, on the extended reals.

  A continuous-time LSTM cell whose state is reset at every step. For time step `t`, batch row `b` and hidden unit
  `h`: the embedded row `X[t, b, ·]` is row `e` of the table, `e` the event number at `(b, t)` with a negative number
  counted from the table's end (`rowIdx`); the pre-activation of gate row `r` is `∑ₖ X[t, b, k] · W[r, k] + bias[r]`
  (`pre`; only the first 1024 columns of `W` meet a nonzero input, the state half being zero); of the seven
  gate groups five are live — input, cell candidate, output, target input, decay — rows `0, 2, 3, 4, 6` of the
  groups of 1024 (`liveRow`); and from the five pre-activations and the duration `d` since the last event
    c = σ(p₀) · tanh(p₁),   c̄ = σ(p₃) · tanh(p₁),   o = σ(p₂),   δ = softplus(p₄),
    h = o · tanh(c̄ + (c − c̄) · e^(−δ · d)),
  stacked as `(h, c, c̄, o, δ)` along the leading axis (`cell`).
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S32x512 : Shape := ⟨2, ![32, 512]⟩
abbrev S512x32 : Shape := ⟨2, ![512, 32]⟩
abbrev S512x32x1 : Shape := ⟨3, ![512, 32, 1]⟩
abbrev S1001x1024 : Shape := ⟨2, ![1001, 1024]⟩
abbrev S7168x2048 : Shape := ⟨2, ![7168, 2048]⟩
abbrev S7168 : Shape := ⟨1, ![7168]⟩
abbrev S512x32x1024 : Shape := ⟨3, ![512, 32, 1024]⟩
abbrev S5x512x32x1024 : Shape := ⟨4, ![5, 512, 32, 1024]⟩
abbrev S8x32x1024 : Shape := ⟨3, ![8, 32, 1024]⟩
abbrev S8x32 : Shape := ⟨2, ![8, 32]⟩
abbrev S1024x5120 : Shape := ⟨2, ![1024, 5120]⟩
abbrev S5120 : Shape := ⟨1, ![5120]⟩

/-! ## The cell, from five pre-activations and a duration -/

/-- `softplus a = max a 0 + log (1 + e^(−|a|))`, the overflow-free form both programs spell. -/
def softplus (a : EReal) : EReal := max a 0 + Ideal.log1p (Ideal.exp (-(max a (-a))))

/-- The cell `c = σ(p₀) · tanh(p₁)`. -/
def cellC (p : Fin 5 → EReal) : EReal := Ideal.logistic (p 0) * Ideal.tanh (p 1)
/-- The cell's target `c̄ = σ(p₃) · tanh(p₁)`. -/
def cellBar (p : Fin 5 → EReal) : EReal := Ideal.logistic (p 3) * Ideal.tanh (p 1)
/-- The output gate `o = σ(p₂)`. -/
def gateO (p : Fin 5 → EReal) : EReal := Ideal.logistic (p 2)
/-- The decay rate `δ = softplus(p₄)`. -/
def rate (p : Fin 5 → EReal) : EReal := softplus (p 4)
/-- The decayed hidden state `o · tanh(c̄ + (c − c̄) · e^(−δ · d))`. -/
def hidden (p : Fin 5 → EReal) (d : EReal) : EReal :=
  gateO p * Ideal.tanh (cellBar p + (cellC p - cellBar p) * Ideal.exp (-(rate p) * d))

/-- The five stacked results. -/
def cell (g : Fin 5) (p : Fin 5 → EReal) (d : EReal) : EReal :=
  match g with
  | 0 => hidden p d
  | 1 => cellC p
  | 2 => cellBar p
  | 3 => gateO p
  | 4 => rate p

/-! ## The live gate rows -/

/-- The group of 1024 rows of the seven that live gate `s` reads: input, cell candidate, output, target input, decay. -/
def liveGroup (s : Fin 5) : Fin 7 := (![0, 2, 3, 4, 6] : Fin 5 → Fin 7) s

/-- Row `liveGroup s · 1024 + h` of the weight matrix and of the bias. -/
def liveRow (s : Fin 5) (h : Fin 1024) : Fin 7168 := ⟨(liveGroup s).val * 1024 + h.val, by have := (liveGroup s).isLt; omega⟩

/-- Column `s · 1024 + h` of the five live groups laid side by side. -/
def liveCol (s : Fin 5) (h : Fin 1024) : Fin 5120 := ⟨s.val * 1024 + h.val, by omega⟩

/-! ## The embedded rows -/

theorem transposes_ev : S32x512.Transposes [1, 0] S512x32 := by decide
theorem bcast_scalar : S_.BroadcastsInDim S512x32 (![] : Fin 0 → Fin S512x32.rank) := by decide
theorem bcast_col : S512x32.BroadcastsInDim S512x32x1 (![0, 1] : Fin 2 → Fin S512x32x1.rank) := by decide
theorem gather_wf : GatherDims.WF S1001x1024 S512x32x1 S512x32x1024 [2] [0] [] [0] [] 2 ![1, 1024] := by decide

/-- One whole table row per start index. -/
def gatherDims : GatherDims S1001x1024 S512x32x1 S512x32x1024 where
  offsetDims := [2]
  collapsedSliceDims := [0]
  operandBatchingDims := []
  startIndicesBatchingDims := []
  startIndexMap := [0]
  indexVectorDim := 2
  sliceSizes := ![1, 1024]
  wf := gather_wf

/-- The events transposed to `[t, b]`. -/
def evT (ev : IVec S32x512 32) : IVec S512x32 32 := transpose S512x32 [1, 0] ev transposes_ev

/-- The row number of each `(t, b)`: the event number, a negative one counted from the table's end. -/
def rowIdx (ev : IVec S32x512 32) : IVec S512x32x1 32 :=
  broadcastInDim S512x32x1 ![0, 1] bcast_col
    (select (cmpi .slt (evT ev) (broadcastInDim S512x32 ![] bcast_scalar (constantI S_ 32 0#32)))
      (addi (evT ev) (broadcastInDim S512x32 ![] bcast_scalar (constantI S_ 32 1001#32)))
      (evT ev))

/-- The embedded rows `X[t, b, ·] = table[rowIdx[t, b], ·]`. -/
def rows (ev : IVec S32x512 32) (tbl : S1001x1024.Idx → EReal) : S512x32x1024.Idx → EReal :=
  Host.gather gatherDims tbl (rowIdx ev)

/-- An embedded entry is a table entry. -/
theorem rows_mem (ev : IVec S32x512 32) (tbl : S1001x1024.Idx → EReal) (i : S512x32x1024.Idx) : ∃ j, rows ev tbl i = tbl j :=
  ⟨_, rfl⟩

/-! ## The result -/

/-- The pre-activation of gate row `r` at `(t, b)`. -/
def pre (X : S512x32x1024.Idx → EReal) (W : S7168x2048.Idx → EReal) (bv : S7168.Idx → EReal) (t : Fin 512) (b : Fin 32)
    (r : Fin 7168) : EReal :=
  (∑ k : Fin 1024, X (ix3 t b k) * W (ix2 r (Fin.castLE (by decide) k))) + bv (ix1 r)

/-- The result at stacked component `g`, time step `t`, batch row `b`, hidden unit `h`. -/
def cellAt (ev : IVec S32x512 32) (dur : S32x512.Idx → EReal) (tbl : S1001x1024.Idx → EReal) (W : S7168x2048.Idx → EReal)
    (bv : S7168.Idx → EReal) (g : Fin 5) (t : Fin 512) (b : Fin 32) (h : Fin 1024) : EReal :=
  cell g (fun s => pre (rows ev tbl) W bv t b (liveRow s h)) (dur (ix2 b t))

/-- THE RESULT ARRAY `[5, 512, 32, 1024]` as a function of the five arguments. -/
def G (ev : IVec S32x512 32) (dur : S32x512.Idx → EReal) (tbl : S1001x1024.Idx → EReal) (W : S7168x2048.Idx → EReal)
    (bv : S7168.Idx → EReal) : S5x512x32x1024.Idx → EReal :=
  fun j => cellAt ev dur tbl W bv (j 0) (j 1) (j 2) (j 3)

theorem G_apply (ev : IVec S32x512 32) (dur : S32x512.Idx → EReal) (tbl : S1001x1024.Idx → EReal) (W : S7168x2048.Idx → EReal)
    (bv : S7168.Idx → EReal) (g : Fin 5) (t : Fin 512) (b : Fin 32) (h : Fin 1024) :
    G ev dur tbl W bv (ix4 g t b h) = cellAt ev dur tbl W bv g t b h := rfl

/-! ## One grid point's block -/

/-- What one output block `[5, 8, 32, 1024]` holds, from the block's eight time steps of embedded rows `x` and durations
    `du`, the live weights `wh : [1024, 5120]` (transposed, the five live groups side by side) and the live bias `b`. -/
def blockCell (x : S8x32x1024.Idx → EReal) (du : S8x32.Idx → EReal) (wh : S1024x5120.Idx → EReal) (b : S5120.Idx → EReal)
    (g : Fin 5) (tt : Fin 8) (bb : Fin 32) (h : Fin 1024) : EReal :=
  cell g (fun s => (∑ k : Fin 1024, x (ix3 tt bb k) * wh (ix2 k (liveCol s h))) + b (ix1 (liveCol s h))) (du (ix2 tt bb))

end Cert.Spec

end
-- ==== Proof.Preact.lean ====
/-
  The pre-activations of one grid point at an index: row `tt · 32 + bb` of the 256 rows of the block and column `col` of
  the 5120 live gate columns. The body splits activations and weights into a high-order and a low-order half and adds
  three products, high·high + high·low + low·high. On the extended reals the high-order half IS the value, the
  low-order half of a finite activation is `x − x = 0`, and the low-order half of the weights is given as zero: two of
  the three products vanish and what is left is `∑ₖ x[tt, bb, k] · w[k, col] + bias[col]`.
-/
import proofs.«419382_j50010599194914_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Preact

open Cert.KernelIdeal Cert.KernelIdeal.Gen Idealize.ShloMosaic Idealize.ShloMosaic.ValueIdx

/-- Row `tt · 32 + bb` of the 256 rows the block's `[8, 32]` leading axes merge into. -/
def row (tt : Fin 8) (bb : Fin 32) : Fin 256 := ⟨tt.val * 32 + bb.val, by omega⟩

/-! ## The merged rows -/

/-- The block's `[8, 32, 1024]` entries merged to `[256, 1024]`: row `tt · 32 + bb`, column `k` is entry `(tt, bb, k)`,
    the two having the same row-major position `(tt · 32 + bb) · 1024 + k`. -/
theorem merged_apply (v0 : FVec Ideal S8x32x1024 .f32) (h : S8x32x1024.ShapeCasts S256x1024)
    (tt : Fin 8) (bb : Fin 32) (k : Fin 1024) :
    shapeCast S256x1024 v0 h (ix2 (row tt bb) k) = v0 (ix3 tt bb k) :=
  shapeCast_apply v0 h (ix2 (row tt bb) k) (ix3 tt bb k) (by
    rw [Shape.rowMajor_val_three, Shape.rowMajor_val_two]
    rfl)

/-! ## The product of a `[256, 1024]` and a `[1024, 5120]` array at an index -/

/-- The left operand is read on the result's row … -/
theorem lhs_axis0 (i : S256x5120.Idx) (q : dot_S256x1024_S1024x5120_S256x5120_1_0_0_1_n_n.contr.Idx) :
    (dot_S256x1024_S1024x5120_S256x5120_1_0_0_1_n_n.lhsIdx i q 0).val = (i 0).val := by
  unfold DotDims.lhsIdx
  rw [dif_neg (show ¬(0 : Fin S256x1024.rank) ∈ dot_S256x1024_S1024x5120_S256x5120_1_0_0_1_n_n.lhsBatch by decide), dif_pos (show (0 : Fin S256x1024.rank) ∈ dot_S256x1024_S1024x5120_S256x5120_1_0_0_1_n_n.lhsNonContracting by decide)]
  rfl
/-- … and on the contraction's position; -/
theorem lhs_axis1 (i : S256x5120.Idx) (q : dot_S256x1024_S1024x5120_S256x5120_1_0_0_1_n_n.contr.Idx) :
    (dot_S256x1024_S1024x5120_S256x5120_1_0_0_1_n_n.lhsIdx i q 1).val = (q ⟨0, by decide⟩).val :=
  dot_S256x1024_S1024x5120_S256x5120_1_0_0_1_n_n.lhsIdx_val_of_single rfl i q
/-- the right operand is read on the contraction's position … -/
theorem rhs_axis0 (i : S256x5120.Idx) (q : dot_S256x1024_S1024x5120_S256x5120_1_0_0_1_n_n.contr.Idx) :
    (dot_S256x1024_S1024x5120_S256x5120_1_0_0_1_n_n.rhsIdx i q 0).val = (q ⟨0, by decide⟩).val :=
  dot_S256x1024_S1024x5120_S256x5120_1_0_0_1_n_n.rhsIdx_val_of_single rfl i q
/-- … and on the result's column. -/
theorem rhs_axis1 (i : S256x5120.Idx) (q : dot_S256x1024_S1024x5120_S256x5120_1_0_0_1_n_n.contr.Idx) :
    (dot_S256x1024_S1024x5120_S256x5120_1_0_0_1_n_n.rhsIdx i q 1).val = (i 1).val := by
  unfold DotDims.rhsIdx
  rw [dif_neg (show ¬(1 : Fin S1024x5120.rank) ∈ dot_S256x1024_S1024x5120_S256x5120_1_0_0_1_n_n.rhsBatch by decide), dif_pos (show (1 : Fin S1024x5120.rank) ∈ dot_S256x1024_S1024x5120_S256x5120_1_0_0_1_n_n.rhsNonContracting by decide)]
  rfl

/-- A product accumulated into zero, at row `r` and column `col`, is `∑ₖ l[r, k] · rr[k, col]`. -/
theorem product_apply (l : FVec Ideal S256x1024 .bf16) (rr : FVec Ideal S1024x5120 .bf16) (r : Fin 256) (col : Fin 5120) :
    matmul (F := Ideal) dot_S256x1024_S1024x5120_S256x5120_1_0_0_1_n_n none l rr (constant (F := Ideal) S256x5120 .f32 0x00000000#32) (ix2 r col)
      = ∑ k : Fin 1024, l (ix2 r k) * rr (ix2 k col) := by
  simp only [matmul]
  rw [Ideal.matmul_constant_zero_apply, ← Equiv.sum_comp (contrEquiv1 dot_S256x1024_S1024x5120_S256x5120_1_0_0_1_n_n 1024 rfl rfl).symm]
  refine Finset.sum_congr rfl fun k _ => ?_
  have hk := contrEquiv1_symm_val dot_S256x1024_S1024x5120_S256x5120_1_0_0_1_n_n 1024 rfl rfl k
  have el : dot_S256x1024_S1024x5120_S256x5120_1_0_0_1_n_n.lhsIdx (ix2 r col) ((contrEquiv1 dot_S256x1024_S1024x5120_S256x5120_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S256x1024_S1024x5120_S256x5120_1_0_0_1_n_n.rhsIdx (ix2 r col) ((contrEquiv1 dot_S256x1024_S1024x5120_S256x5120_1_0_0_1_n_n 1024 rfl rfl).symm k) = ix2 k col := funext fun a => Fin.ext (by
    match a with
    | ⟨0, _⟩ => exact (rhs_axis0 _ _).trans hk
    | ⟨1, _⟩ => exact rhs_axis1 _ _)
  rw [el, er]

/-! ## The bias row -/

/-- The `[5120]` bias laid as one row and repeated over the 256 rows reads, at `(r, col)`, the bias at `col`. -/
theorem bias_apply (v16 : Vec Ideal S5120 .f32) (h1 : S5120.ShapeCasts S5120) (h2 : S5120.ShapeCasts S1x5120) (h3 : S1x5120.Broadcasts S256x5120)
    (r : Fin 256) (col : Fin 5120) :
    broadcastTo S256x5120 (shapeCast S1x5120 (shapeCast S5120 v16 h1) h2) h3 (ix2 r col) = v16 (ix1 col) := by
  rw [shapeCast_self]
  exact (broadcastTo_1b_ab_apply _ h3 r col).trans (shapeCast_a_1a_apply v16 h2 0 col)

/-! ## The pre-activation -/

theorem pay1_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (col : Fin 5120) :
    k0_pay1 (F := Ideal) v0 v7 v9 v16 (ix2 (row tt bb) col) = (∑ k : Fin 1024, v0 (ix3 tt bb k) * v7 (ix2 k col)) + v16 (ix1 col) := by
  -- a finite activation's low-order half vanishes
  have hz : ∀ k : Fin 1024, v0 (ix3 tt bb k) - v0 (ix3 tt bb k) = 0 := fun k => by
    obtain ⟨r, hr⟩ := hx (ix3 tt bb k)
    rw [hr, ← EReal.coe_sub, sub_self, EReal.coe_zero]
  unfold k0_pay1
  simp only [addf_apply]
  rw [product_apply, product_apply, product_apply, bias_apply]
  -- the casts to the same shape drop, the merged rows are read at `(tt, bb, k)`, and two of the three sums are sums of zeros
  simp only [truncf_apply, subf_apply, shapeCast_self, merged_apply, hwl, hz, mul_zero, zero_mul, Finset.sum_const_zero, add_zero]

end Cert.KernelIdeal.Preact

end
-- ==== Proof.Payload.lean ====
/-
  One output block at an index: the canonical form of the body's five stores, read at slab `g`, time step `tt` of the
  block, batch row `bb` and hidden unit `h`, is the cell of the five pre-activations of that row — provided the
  embedded rows are finite (so that the low-order half `x − x` of the split activations vanishes) and the low-order
  half of the split weights is zero.

  The five live gate groups lie side by side in the 5120 columns of the pre-activations; the body cuts them apart, applies
  `σ`, `tanh` and the softplus `max a 0 + log (1 + e^(−|a|))` lane by lane, and stores `(h, c, c̄, o, δ)` as five slabs along
  the leading axis. Every operation is read at one index; the softplus is guarded by a choice on `a ≠ a`, which no
  extended real satisfies.
-/
import proofs.«419382_j50010599194914_3_alg».proof.Proof.FrameI
import proofs.«419382_j50010599194914_3_alg».proof.Proof.Spec
import proofs.«419382_j50010599194914_3_alg».proof.Proof.Preact
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The pre-activation of live gate `s` at `(tt, bb, h)`. -/
def pre (x : Vec Ideal S8x32x1024 .f32) (wh : Vec Ideal S1024x5120 .bf16) (b : Vec Ideal S5120 .f32)
    (tt : Fin 8) (bb : Fin 32) (h : Fin 1024) (s : Fin 5) : EReal :=
  (∑ k : Fin 1024, x (ix3 tt bb k) * wh (ix2 k (Cert.Spec.liveCol s h))) + b (ix1 (Cert.Spec.liveCol s h))

/-- The band of 1024 columns from `s · 1024` of the pre-activations, read at row `tt · 32 + bb` and column `h`, is the
    pre-activation of live gate `s`. -/
theorem slice_apply (s : Fin 5) (o : ℕ) (ho : o = s.val * 1024) (hs : S256x5120.Slices ![0, o] S256x1024)
    (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    extractStridedSlice S256x1024 ![0, o] (k0_pay1 (F := Ideal) v0 v7 v9 v16) hs (ix2 (Preact.row tt bb) h)
      = pre v0 v7 v16 tt bb h s := by
  refine (slice2_axis1_apply o _ hs (Preact.row tt bb) h (Cert.Spec.liveCol s h) ?_).trans ?_
  · show s.val * 1024 + h.val = o + h.val
    omega
  · exact Preact.pay1_apply v0 v7 v9 v16 hx hwl tt bb (Cert.Spec.liveCol s h)

/-- The 256 rows seen as `[8, 32]`: entry `(tt, bb, h)` is entry `(tt · 32 + bb, h)`. -/
theorem cast_apply (X : FVec Ideal S256x1024 .f32) (tt : Fin 8) (bb : Fin 32) (h : Fin 1024) :
    shapeCast S8x32x1024 X shapeCasts_S256x1024_S8x32x1024 (ix3 tt bb h) = X (ix2 (Preact.row tt bb) h) := by
  refine shapeCast_apply X _ _ _ ?_
  rw [Shape.rowMajor_val_two, Shape.rowMajor_val_three]
  rfl

/-- The input gate `σ(p₀)`. -/
theorem pay3_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay3 (F := Ideal) v0 v7 v9 v16 (ix3 tt bb h) = Ideal.logistic (pre v0 v7 v16 tt bb h 0) := by
  unfold k0_pay3
  refine (cast_apply _ tt bb h).trans ?_
  show Ideal.logistic (extractStridedSlice S256x1024 ![0, 0] (k0_pay1 (F := Ideal) v0 v7 v9 v16) slices_S256x5120_o0_0_S256x1024 (ix2 (Preact.row tt bb) h)) = _
  rw [slice_apply 0 0 rfl _ v0 v7 v9 v16 hx hwl tt bb h]

/-- The cell candidate `tanh(p₁)`. -/
theorem pay4_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay4 (F := Ideal) v0 v7 v9 v16 (ix3 tt bb h) = Ideal.tanh (pre v0 v7 v16 tt bb h 1) := by
  unfold k0_pay4
  refine (cast_apply _ tt bb h).trans ?_
  show Ideal.tanh (extractStridedSlice S256x1024 ![0, 1024] (k0_pay1 (F := Ideal) v0 v7 v9 v16) slices_S256x5120_o0_1024_S256x1024 (ix2 (Preact.row tt bb) h)) = _
  rw [slice_apply 1 1024 rfl _ v0 v7 v9 v16 hx hwl tt bb h]

/-- The output gate `σ(p₂)`. -/
theorem pay5_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay5 (F := Ideal) v0 v7 v9 v16 (ix3 tt bb h) = Ideal.logistic (pre v0 v7 v16 tt bb h 2) := by
  unfold k0_pay5
  refine (cast_apply _ tt bb h).trans ?_
  show Ideal.logistic (extractStridedSlice S256x1024 ![0, 2048] (k0_pay1 (F := Ideal) v0 v7 v9 v16) slices_S256x5120_o0_2048_S256x1024 (ix2 (Preact.row tt bb) h)) = _
  rw [slice_apply 2 2048 rfl _ v0 v7 v9 v16 hx hwl tt bb h]

/-- The target input gate `σ(p₃)`. -/
theorem pay6_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay6 (F := Ideal) v0 v7 v9 v16 (ix3 tt bb h) = Ideal.logistic (pre v0 v7 v16 tt bb h 3) := by
  unfold k0_pay6
  refine (cast_apply _ tt bb h).trans ?_
  show Ideal.logistic (extractStridedSlice S256x1024 ![0, 3072] (k0_pay1 (F := Ideal) v0 v7 v9 v16) slices_S256x5120_o0_3072_S256x1024 (ix2 (Preact.row tt bb) h)) = _
  rw [slice_apply 3 3072 rfl _ v0 v7 v9 v16 hx hwl tt bb h]

/-- The decay pre-activation `p₄`. -/
theorem pay2_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay2 (F := Ideal) v0 v7 v9 v16 (ix2 (Preact.row tt bb) h) = pre v0 v7 v16 tt bb h 4 := by
  unfold k0_pay2
  exact slice_apply 4 4096 rfl _ v0 v7 v9 v16 hx hwl tt bb h

/-- `max p₄ 0`. -/
theorem pay7_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay7 (F := Ideal) v0 v7 v9 v16 (ix2 (Preact.row tt bb) h) = max (pre v0 v7 v16 tt bb h 4) 0 := by
  unfold k0_pay7
  show max (k0_pay2 (F := Ideal) v0 v7 v9 v16 (ix2 (Preact.row tt bb) h)) (Ideal.ofBits .f32 0x00000000#32) = _
  rw [pay2_apply v0 v7 v9 v16 hx hwl, Ideal.ofBits_zero_f32]

/-- `p₄ − 0 = p₄`. -/
theorem pay8_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay8 (F := Ideal) v0 v7 v9 v16 (ix2 (Preact.row tt bb) h) = pre v0 v7 v16 tt bb h 4 := by
  unfold k0_pay8
  show k0_pay2 (F := Ideal) v0 v7 v9 v16 (ix2 (Preact.row tt bb) h) - Ideal.ofBits .f32 0x00000000#32 = _
  rw [pay2_apply v0 v7 v9 v16 hx hwl, Ideal.ofBits_zero_f32, sub_zero]

/-- A value is never different from itself: the comparison's bit is zero. -/
theorem pay9_apply (v0 : Vec Ideal S8x32x1024 .f32) (v7 v9 : Vec Ideal S1024x5120 .bf16) (v16 : Vec Ideal S5120 .f32)
    (j : S256x1024.Idx) : k0_pay9 (F := Ideal) v0 v7 v9 v16 j = 0#1 := by
  unfold k0_pay9
  show Ideal.cmp .one (k0_pay8 (F := Ideal) v0 v7 v9 v16 j) (k0_pay8 (F := Ideal) v0 v7 v9 v16 j) = 0#1
  simp [Ideal.cmp]

/-- `log (1 + e^(0 − |p₄|))`, the absolute value being `max p₄ (−p₄)` and `0 − y = −y`. -/
theorem pay11_apply (v0 : Vec Ideal S8x32x1024 .f32) (v7 v9 : Vec Ideal S1024x5120 .bf16) (v16 : Vec Ideal S5120 .f32)
    (hx : ∀ i, ∃ r : ℝ, v0 i = (r : EReal)) (hwl : ∀ i, v9 i = 0) (tt : Fin 8) (bb : Fin 32) (h : Fin 1024) :
    k0_pay11 (F := Ideal) v0 v7 v9 v16 (ix2 (Preact.row tt bb) h)
      = Ideal.log1p (Ideal.exp (-(max (pre v0 v7 v16 tt bb h 4) (-(pre v0 v7 v16 tt bb h 4))))) := by
  unfold k0_pay11
  show Ideal.log1p (Ideal.exp (Ideal.ofBits .f32 0x00000000#32
      - max (k0_pay8 (F := Ideal) v0 v7 v9 v16 (ix2 (Preact.row tt bb) h)) (-(k0_pay8 (F := Ideal) v0 v7 v9 v16 (ix2 (Preact.row tt bb) h))))) = _
  rw [pay8_apply v0 v7 v9 v16 hx hwl, Ideal.ofBits_zero_f32, zero_sub]

/-- The decay rate's choice at an index: where the comparison's bit is zero it is the sum of its two terms. -/
theorem pay12_apply (v35 : FVec Ideal S256x1024 .f32) (v38 : IVec S256x1024 1) (v40 v45 : FVec Ideal S256x1024 .f32)
    (tt : Fin 8) (bb : Fin 32) (h : Fin 1024) (hc : v38 (ix2 (Preact.row tt bb) h) = 0#1) :
    k0_pay12 (F := Ideal) v35 v38 v40 v45 (ix3 tt bb h) = v35 (ix2 (Preact.row tt bb) h) + v45 (ix2 (Preact.row tt bb) h) := by
  unfold k0_pay12
  refine (cast_apply _ tt bb h).trans ?_
  show Scalar.select (v38 (ix2 (Preact.row tt bb) h)) (v40 (ix2 (Preact.row tt bb) h)) (v35 (ix2 (Preact.row tt bb) h) + v45 (ix2 (Preact.row tt bb) h)) = _
  rw [hc, select_zero]

/-- A leading unit axis added: entry `(u, tt, bb, h)` is entry `(tt, bb, h)`. -/
theorem cast1_apply (X : FVec Ideal S8x32x1024 .f32) (u : Fin 1) (tt : Fin 8) (bb : Fin 32) (h : Fin 1024) :
    shapeCast S1x8x32x1024 X shapeCasts_S8x32x1024_S1x8x32x1024 (ix4 u tt bb h) = X (ix3 tt bb h) :=
  shapeCast_abc_1abc_apply X _ u tt bb h

/-- The duration `[8, 32]`, given a trailing unit axis and broadcast along the hidden units, reads the duration. -/
theorem dur_apply (v49 : Vec Ideal S8x32 .f32) (tt : Fin 8) (bb : Fin 32) (h : Fin 1024) :
    broadcastTo S8x32x1024 (shapeCast S8x32x1 (shapeCast S8x32 v49 shapeCasts_S8x32_S8x32) shapeCasts_S8x32_S8x32x1)
      broadcasts_S8x32x1_S8x32x1024 (ix3 tt bb h) = v49 (ix2 tt bb) := by
  refine (broadcastTo_apply _ _ (ix3 tt bb h) (ix3 tt bb (0 : Fin 1)) fun a => ?_).trans ?_
  · match a with
    | ⟨0, _⟩ => rfl
    | ⟨1, _⟩ => rfl
    | ⟨2, _⟩ => rfl
  · rw [shapeCast_self]
    refine shapeCast_apply v49 _ _ (ix2 tt bb) ?_
    rw [Shape.rowMajor_val_two, Shape.rowMajor_val_three]
    show tt.val * 32 + bb.val = (tt.val * 32 + bb.val) * 1 + 0
    omega

/-- The cell `c = σ(p₀) · tanh(p₁)` and its target `c̄ = σ(p₃) · tanh(p₁)`, as products of the gates. -/
theorem pay13_apply (v27 v29 : FVec Ideal S8x32x1024 .f32) (j : S8x32x1024.Idx) :
    k0_pay13 (F := Ideal) v27 v29 j = v27 j * v29 j := rfl

theorem pay14_apply (v29 v33 : FVec Ideal S8x32x1024 .f32) (j : S8x32x1024.Idx) :
    k0_pay14 (F := Ideal) v29 v33 j = v33 j * v29 j := rfl

/-- The four slabs that are a gate, a product of gates or the decay rate with a leading unit axis added. -/
theorem pay16_apply (v27 v29 : FVec Ideal S8x32x1024 .f32) (u : Fin 1) (tt : Fin 8) (bb : Fin 32) (h : Fin 1024) :
    k0_pay16 (F := Ideal) v27 v29 (ix4 u tt bb h) = v27 (ix3 tt bb h) * v29 (ix3 tt bb h) := by
  unfold k0_pay16
  exact (cast1_apply _ u tt bb h).trans (pay13_apply v27 v29 _)

theorem pay17_apply (v29 v33 : FVec Ideal S8x32x1024 .f32) (u : Fin 1) (tt : Fin 8) (bb : Fin 32) (h : Fin 1024) :
    k0_pay17 (F := Ideal) v29 v33 (ix4 u tt bb h) = v33 (ix3 tt bb h) * v29 (ix3 tt bb h) := by
  unfold k0_pay17
  exact (cast1_apply _ u tt bb h).trans (pay14_apply v29 v33 _)

theorem pay18_apply (v31 : FVec Ideal S8x32x1024 .f32) (u : Fin 1) (tt : Fin 8) (bb : Fin 32) (h : Fin 1024) :
    k0_pay18 (F := Ideal) v31 (ix4 u tt bb h) = v31 (ix3 tt bb h) := by
  unfold k0_pay18
  exact cast1_apply _ u tt bb h

theorem pay19_apply (v35 : FVec Ideal S256x1024 .f32) (v38 : IVec S256x1024 1) (v40 v45 : FVec Ideal S256x1024 .f32)
    (u : Fin 1) (tt : Fin 8) (bb : Fin 32) (h : Fin 1024) :
    k0_pay19 (F := Ideal) v35 v38 v40 v45 (ix4 u tt bb h) = k0_pay12 (F := Ideal) v35 v38 v40 v45 (ix3 tt bb h) := by
  unfold k0_pay19
  exact cast1_apply _ u tt bb h

/-- The decayed hidden state `o · tanh(c̄ + (c − c̄) · e^(−δ · d))` over the gates, the rate's chain and the duration. -/
theorem pay15_apply (v27 v29 v31 v33 : FVec Ideal S8x32x1024 .f32) (v35 : FVec Ideal S256x1024 .f32) (v38 : IVec S256x1024 1)
    (v40 v45 : FVec Ideal S256x1024 .f32) (v49 : Vec Ideal S8x32 .f32) (u : Fin 1) (tt : Fin 8) (bb : Fin 32) (h : Fin 1024) :
    k0_pay15 (F := Ideal) v27 v29 v31 v33 v35 v38 v40 v45 v49 (ix4 u tt bb h)
      = v31 (ix3 tt bb h) * Ideal.tanh (v33 (ix3 tt bb h) * v29 (ix3 tt bb h)
          + (v27 (ix3 tt bb h) * v29 (ix3 tt bb h) - v33 (ix3 tt bb h) * v29 (ix3 tt bb h))
            * Ideal.exp (-(k0_pay12 (F := Ideal) v35 v38 v40 v45 (ix3 tt bb h)) * v49 (ix2 tt bb))) := by
  unfold k0_pay15
  refine (cast1_apply _ u tt bb h).trans ?_
  show v31 (ix3 tt bb h) * Ideal.tanh (v33 (ix3 tt bb h) * v29 (ix3 tt bb h)
          + (v27 (ix3 tt bb h) * v29 (ix3 tt bb h) - v33 (ix3 tt bb h) * v29 (ix3 tt bb h))
            * Ideal.exp ((Ideal.ofBits .f32 0x00000000#32 - k0_pay12 (F := Ideal) v35 v38 v40 v45 (ix3 tt bb h))
              * broadcastTo S8x32x1024 (shapeCast S8x32x1 (shapeCast S8x32 v49 shapeCasts_S8x32_S8x32) shapeCasts_S8x32_S8x32x1)
                  broadcasts_S8x32x1_S8x32x1024 (ix3 tt bb h))) = _
  rw [dur_apply, Ideal.ofBits_zero_f32, zero_sub]

/-! ## The five slabs -/

/-- The zero offsets of the whole-buffer rectangles; a load through one reads the buffer. -/
theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

theorem ld_x (x : Vec Ideal S8x32x1024 .f32) : View.ld x Frame.rx = x := View.ld_unit_zero (S := S8x32x1024) zeros3 _ x
theorem ld_d (du : Vec Ideal S8x32 .f32) : View.ld du Frame.rd = du := View.ld_unit_zero (S := S8x32) zeros2 _ du
theorem ld_w (w : Vec Ideal S1024x5120 .bf16) : View.ld w Frame.rw_ = w := View.ld_unit_zero (S := S1024x5120) zeros2 _ w
theorem ld_b (b : Vec Ideal S5120 .f32) : View.ld b Frame.rb = b := View.ld_unit_zero (S := S5120) zeros1 _ b

/-- Slab `o` of the block, the rectangle `[o, 0, 0, 0]` of sizes `[1, 8, 32, 1024]`, places its index `(0, tt, bb, h)` at
    `(o, tt, bb, h)`. -/
theorem emb_slab (o : ℕ) (inb : ∀ a, (![o, 0, 0, 0] : Fin 4 → ℕ) a + S1x8x32x1024.size a ≤ S5x8x32x1024.size a)
    (g : Fin 5) (hg : g.val = o) (tt : Fin 8) (bb : Fin 32) (h : Fin 1024) :
    (Rect.unit (s := S5x8x32x1024) ![o, 0, 0, 0] S1x8x32x1024.size inb).emb (ix4 (0 : Fin 1) tt bb h) = ix4 g tt bb h := by
  funext a
  apply Fin.ext
  rw [Rect.emb_apply]
  match a with
  | ⟨0, _⟩ => show o + 1 * 0 = g.val; omega
  | ⟨1, _⟩ => show 0 + 1 * tt.val = tt.val; omega
  | ⟨2, _⟩ => show 0 + 1 * bb.val = bb.val; omega
  | ⟨3, _⟩ => show 0 + 1 * h.val = h.val; omega

/-- An index of another slab is not in slab `o`. -/
theorem not_mem_slab (o : ℕ) (inb : ∀ a, (![o, 0, 0, 0] : Fin 4 → ℕ) a + S1x8x32x1024.size a ≤ S5x8x32x1024.size a)
    (g : Fin 5) (hg : g.val ≠ o) (tt : Fin 8) (bb : Fin 32) (h : Fin 1024) :
    ix4 g tt bb h ∉ (Rect.unit (s := S5x8x32x1024) ![o, 0, 0, 0] S1x8x32x1024.size inb).set := by
  rw [Rect.mem_set_unit]
  intro hm
  have h0 : o ≤ g.val ∧ g.val < o + 1 := hm 0
  omega

/-- Off the last write's rectangle, the canon is the canon of the earlier writes. -/
theorem canon_skip {S : Shape} {e : EltTy} (r : Rect S) (w : r.shape.Idx → Elt Ideal e) (L : List (View.Piece (Elt Ideal) S e))
    {y : S.Idx} (hy : y ∉ r.set) : View.canon ((⟨r, w⟩ : View.Piece (Elt Ideal) S e) :: L) y = View.canon L y :=
  View.canon_cons_of_not_mem (⟨r, w⟩ : View.Piece (Elt Ideal) S e) L hy

/-! The five slabs are disjoint along the leading axis: at an index of slab `g` the canonical form passes over the slabs
stored later and reads slab `g`'s payload at `(0, tt, bb, h)`. -/

section Canon
variable (p4 p3 p2 p1 p0 : Vec Ideal S1x8x32x1024 .f32) (tt : Fin 8) (bb : Fin 32) (h : Fin 1024)

theorem canon_at4 : View.canon ([⟨Frame.ro4, p4⟩, ⟨Frame.ro3, p3⟩, ⟨Frame.ro2, p2⟩, ⟨Frame.ro1, p1⟩, ⟨Frame.ro0, p0⟩] :
      List (View.Piece (Elt Ideal) S5x8x32x1024 .f32)) (ix4 4 tt bb h) = p4 (ix4 (0 : Fin 1) tt bb h) := by
  rw [← emb_slab 4 inb_S5x8x32x1024_S1x8x32x1024_4_0_0_0 4 rfl tt bb h]
  exact View.canon_cons_emb Frame.ro4 p4 _ _

theorem canon_at3 : View.canon ([⟨Frame.ro4, p4⟩, ⟨Frame.ro3, p3⟩, ⟨Frame.ro2, p2⟩, ⟨Frame.ro1, p1⟩, ⟨Frame.ro0, p0⟩] :
      List (View.Piece (Elt Ideal) S5x8x32x1024 .f32)) (ix4 3 tt bb h) = p3 (ix4 (0 : Fin 1) tt bb h) := by
  refine (canon_skip Frame.ro4 p4 _ (not_mem_slab 4 _ 3 (by decide) tt bb h)).trans ?_
  rw [← emb_slab 3 inb_S5x8x32x1024_S1x8x32x1024_3_0_0_0 3 rfl tt bb h]
  exact View.canon_cons_emb Frame.ro3 p3 _ _

theorem canon_at2 : View.canon ([⟨Frame.ro4, p4⟩, ⟨Frame.ro3, p3⟩, ⟨Frame.ro2, p2⟩, ⟨Frame.ro1, p1⟩, ⟨Frame.ro0, p0⟩] :
      List (View.Piece (Elt Ideal) S5x8x32x1024 .f32)) (ix4 2 tt bb h) = p2 (ix4 (0 : Fin 1) tt bb h) := by
  refine (canon_skip Frame.ro4 p4 _ (not_mem_slab 4 _ 2 (by decide) tt bb h)).trans ?_
  refine (canon_skip Frame.ro3 p3 _ (not_mem_slab 3 _ 2 (by decide) tt bb h)).trans ?_
  rw [← emb_slab 2 inb_S5x8x32x1024_S1x8x32x1024_2_0_0_0 2 rfl tt bb h]
  exact View.canon_cons_emb Frame.ro2 p2 _ _

theorem canon_at1 : View.canon ([⟨Frame.ro4, p4⟩, ⟨Frame.ro3, p3⟩, ⟨Frame.ro2, p2⟩, ⟨Frame.ro1, p1⟩, ⟨Frame.ro0, p0⟩] :
      List (View.Piece (Elt Ideal) S5x8x32x1024 .f32)) (ix4 1 tt bb h) = p1 (ix4 (0 : Fin 1) tt bb h) := by
  refine (canon_skip Frame.ro4 p4 _ (not_mem_slab 4 _ 1 (by decide) tt bb h)).trans ?_
  refine (canon_skip Frame.ro3 p3 _ (not_mem_slab 3 _ 1 (by decide) tt bb h)).trans ?_
  refine (canon_skip Frame.ro2 p2 _ (not_mem_slab 2 _ 1 (by decide) tt bb h)).trans ?_
  rw [← emb_slab 1 inb_S5x8x32x1024_S1x8x32x1024_1_0_0_0 1 rfl tt bb h]
  exact View.canon_cons_emb Frame.ro1 p1 _ _

theorem canon_at0 : View.canon ([⟨Frame.ro4, p4⟩, ⟨Frame.ro3, p3⟩, ⟨Frame.ro2, p2⟩, ⟨Frame.ro1, p1⟩, ⟨Frame.ro0, p0⟩] :
      List (View.Piece (Elt Ideal) S5x8x32x1024 .f32)) (ix4 0 tt bb h) = p0 (ix4 (0 : Fin 1) tt bb h) := by
  refine (canon_skip Frame.ro4 p4 _ (not_mem_slab 4 _ 0 (by decide) tt bb h)).trans ?_
  refine (canon_skip Frame.ro3 p3 _ (not_mem_slab 3 _ 0 (by decide) tt bb h)).trans ?_
  refine (canon_skip Frame.ro2 p2 _ (not_mem_slab 2 _ 0 (by decide) tt bb h)).trans ?_
  refine (canon_skip Frame.ro1 p1 _ (not_mem_slab 1 _ 0 (by decide) tt bb h)).trans ?_
  rw [← emb_slab 0 inb_S5x8x32x1024_S1x8x32x1024_0_0_0_0 0 rfl tt bb h]
  exact View.canon_cons_emb Frame.ro0 p0 _ _

end Canon

/-! ## The block at an index -/

/-- At slab `g` the block holds component `g` of the cell of the five pre-activations: the rate's chain is the softplus
    (`hrate`), and each slab is then the cell's component by unfolding. -/
theorem out5_apply (x : Vec Ideal S8x32x1024 .f32) (du : Vec Ideal S8x32 .f32) (wh wl : Vec Ideal S1024x5120 .bf16) (b : Vec Ideal S5120 .f32)
    (hx : ∀ i, ∃ r : ℝ, x i = (r : EReal)) (hwl : ∀ i, wl i = 0)
    (g : Fin 5) (tt : Fin 8) (bb : Fin 32) (h : Fin 1024) :
    Cert.KernelIdeal.Frame.out5 (F := Ideal) x du wh wl b (ix4 g tt bb h) = Cert.Spec.blockCell x du wh b g tt bb h := by
  unfold Frame.out5 Frame.pieces5
  rw [ld_x, ld_d, ld_w wh, ld_w wl, ld_b]
  have hrate : k0_pay12 (F := Ideal) (k0_pay7 x wh wl b) (k0_pay9 x wh wl b) (k0_pay10 x wh wl b) (k0_pay11 x wh wl b) (ix3 tt bb h)
      = Cert.Spec.softplus (pre x wh b tt bb h 4) := by
    rw [pay12_apply _ _ _ _ tt bb h (pay9_apply x wh wl b _), pay7_apply x wh wl b hx hwl, pay11_apply x wh wl b hx hwl]
    rfl
  match g with
  | 0 =>
    rw [canon_at0, pay15_apply, hrate, pay3_apply x wh wl b hx hwl, pay4_apply x wh wl b hx hwl, pay5_apply x wh wl b hx hwl,
      pay6_apply x wh wl b hx hwl]
    rfl
  | 1 =>
    rw [canon_at1, pay16_apply, pay3_apply x wh wl b hx hwl, pay4_apply x wh wl b hx hwl]
    rfl
  | 2 =>
    rw [canon_at2, pay17_apply, pay4_apply x wh wl b hx hwl, pay6_apply x wh wl b hx hwl]
    rfl
  | 3 =>
    rw [canon_at3, pay18_apply, pay5_apply x wh wl b hx hwl]
    rfl
  | 4 =>
    rw [canon_at4, pay19_apply, hrate]
    rfl

end Cert.KernelIdeal.Payload

end
-- ==== Proof.HostRows.lean ====
/-
  What the region finds in the first array its windows stage: the embedded rows. The program gathers one table row per
  event number (a negative number counted from the table's end) and then keeps the gathered row only where the number is
  in `[0, 1000]`, filling the rest. Where every event number lies in `[−1001, 1000]` the number counted from the end lies
  in `[0, 1000]` everywhere, so the fill is never chosen and the array is the gathered rows.
-/
import proofs.«419382_j50010599194914_3_alg».proof.Proof.Staged
import proofs.«419382_j50010599194914_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

noncomputable section

namespace Cert.KernelIdeal.HostRows

open Cert.KernelIdeal Cert.KernelIdeal.Gen Cert.KernelIdeal.Frame Cert.KernelIdeal.Staged Idealize.ShloMosaic Idealize.ShloMosaic.TcCoe Idealize.ShloMosaic.ValueIdx Idealize.SL.Sem

variable (m : (ℓ : Loc nD τ sig) → Buf (Elt Ideal) ℓ) (c : Dev nD)

/-! ## The array as a term -/

/-- The row numbers the take reads, from the events transposed to `[t, b]`: a negative number counted from the table's end. -/
def takeIdx (T : IVec S512x32 32) : IVec S512x32x1 32 :=
  broadcastInDim S512x32x1 ![0, 1] bcast_S512x32_S512x32x1_0_1
    (select (cmpi .slt T (broadcastInDim S512x32 ![] bcast_S_S512x32 (constantI S_ 32 0#32)))
      (addi T (broadcastInDim S512x32 ![] bcast_S_S512x32 (constantI S_ 32 1001#32))) T)

/-- Where the row number is in `[0, 1000]`, elementwise on `[512, 32, 1]`. -/
def takeInRange (T : IVec S512x32 32) : IVec S512x32x1 1 :=
  andi (cmpi .sge (takeIdx T) (broadcastInDim S512x32x1 ![] bcast_S_S512x32x1 (constantI S_ 32 0#32)))
    (cmpi .sle (takeIdx T) (broadcastInDim S512x32x1 ![0, 1, 2] bcast_S1x1x1_S512x32x1_0_1_2
      (broadcastInDim S1x1x1 ![2] bcast_S1_S1x1x1_2 (constantI S1 32 1000#32))))

/-- The same, and-reduced over the unit axis. -/
def takeMask (T : IVec S512x32 32) : IVec S512x32 1 :=
  Host.reduce IntOp.andi (takeInRange T) (constantI S_ 1 1#1) reducesTo_S512x32x1_S512x32_d2 h_S_

/-- What the take leaves: the gathered row where the row number is in range, the fill elsewhere. -/
def takeVal (T : IVec S512x32 32) (tbl : S1001x1024.Idx → EReal) : S512x32x1024.Idx → EReal :=
  select (broadcastInDim S512x32x1024 ![0, 1] bcast_S512x32_S512x32x1024_0_1 (takeMask T))
    (Host.gather gather_S1001x1024_S512x32x1_S512x32x1024_2_0_n_n_0_2_11024 tbl (takeIdx T))
    (broadcastInDim S512x32x1024 ![] bcast_S_S512x32x1024 (constant (F := Ideal) S_ .f32 0x7FC00000#32))

/-- Contents moved to a typed reference's buffer type and back are the contents. -/
theorem ofBuf_toBuf {T : BufTy} (x : StableHlo.TRef sig T) (v : T.Contents (Elt Ideal)) : x.ofBuf (x.toBuf v) = v := by
  obtain ⟨r, h, h2, h3⟩ := x
  subst h
  rfl

/-- The three stretches in turn. -/
theorem V_stretches (b : Ref sig .tc) :
    V m c b = StableHlo.after hostOps0_2 (StableHlo.after hostOps0_1 (StableHlo.after hostOps0 (fun b => m (c, b)))) (Proc.devRef .tc b) := by
  show StableHlo.after (List.flatten [hostOps0, hostOps0_1, hostOps0_2]) (fun b => m (c, b)) (Proc.devRef .tc b) = _
  rw [List.flatten_cons, List.flatten_cons, List.flatten_cons, List.flatten_nil, List.append_nil, StableHlo.after_append, StableHlo.after_append]

/-- The last stretch leaves the embedded rows as they were. -/
theorem stretch2_v2 (W : Valuation τ sig (Elt Ideal)) :
    StableHlo.after hostOps0_2 W (Proc.devRef .tc main_v2) = W (Proc.devRef .tc main_v2) := by
  unfold hostOps0_2
  after_results

/-- The take, from whatever the first stretch left. -/
theorem stretch1_v2 (W : Valuation τ sig (Elt Ideal)) :
    (StableHlo.after hostOps0_1 W (Proc.devRef .tc main_v2) : S512x32x1024.Idx → EReal)
      = takeVal (W (Proc.devRef .tc main_v0)) (W (Proc.devRef .tc main_arg2)) := by
  have e0 : ((StableHlo.TRef.of main_v0 : StableHlo.TRef sig ⟨S512x32, .i32⟩).ofBuf (W (Proc.devRef .tc main_v0)) : IVec S512x32 32)
      = W (Proc.devRef .tc main_v0) := rfl
  have e2 : ((StableHlo.TRef.of main_arg2 : StableHlo.TRef sig ⟨S1001x1024, .f32⟩).ofBuf (W (Proc.devRef .tc main_arg2)) : S1001x1024.Idx → EReal)
      = W (Proc.devRef .tc main_arg2) := rfl
  have er : ∀ v : S512x32x1024.Idx → EReal,
      (StableHlo.TRef.of main_v2 : StableHlo.TRef sig ⟨S512x32x1024, .f32⟩).toBuf (Val := Elt Ideal) v = v := fun _ => rfl
  unfold hostOps0_1
  after_results_simp
  simp only [ofBuf_toBuf]
  refine (er _).trans ?_
  rw [e0, e2]
  unfold takeVal takeMask takeInRange takeIdx
  rfl

/-- The first stretch transposes the events, -/
theorem stretch0_v0 (V0 : Valuation τ sig (Elt Ideal)) :
    (StableHlo.after hostOps0 V0 (Proc.devRef .tc main_v0) : IVec S512x32 32)
      = transpose S512x32 [1, 0] (V0 (Proc.devRef .tc main_arg0) : IVec S32x512 32) transposes_S32x512_S512x32_1_0 := by
  unfold hostOps0
  after_results

/-- and leaves the table as launched. -/
theorem stretch0_arg2 (V0 : Valuation τ sig (Elt Ideal)) :
    StableHlo.after hostOps0 V0 (Proc.devRef .tc main_arg2) = V0 (Proc.devRef .tc main_arg2) := by
  unfold hostOps0
  after_results

/-- The embedded rows as the region finds them: the take of the table at the transposed events. -/
theorem xArr_term :
    xArr m c = takeVal (transpose S512x32 [1, 0] (evArg m c) transposes_S32x512_S512x32_1_0) (tblArg m c) := by
  show V m c main_v2 = _
  rw [V_stretches, stretch2_v2]
  refine (stretch1_v2 _).trans ?_
  rw [stretch0_v0, stretch0_arg2]

/-! ## The row number is in range -/

/-- A number in `[−1001, 1000]`, counted from the end of 1001 rows when negative, is in `[0, 1000]`: both comparisons hold. -/
theorem word_inRange (e : BitVec 32) (h1 : -1001 ≤ e.toInt) (h2 : e.toInt ≤ 1000) :
    IntOp.andi (IntOp.cmpi .sge (Scalar.select (IntOp.cmpi .slt e 0#32) (IntOp.addi e 1001#32) e) 0#32)
      (IntOp.cmpi .sle (Scalar.select (IntOp.cmpi .slt e 0#32) (IntOp.addi e 1001#32) e) 1000#32) = 1#1 := by
  have h0 : (0#32 : BitVec 32).toInt = 0 := by decide
  have hk : (1000#32 : BitVec 32).toInt = 1000 := by decide
  have hn : (1001#32 : BitVec 32).toInt = 1001 := by decide
  rw [IntOp.andi_eq_one, IntOp.cmpi_sge, IntOp.cmpi_sle, h0, hk]
  by_cases hlt : IntOp.cmpi .slt e 0#32 = 1#1
  · have hneg : e.toInt < 0 := by
      have := IntOp.cmpi_slt.mp hlt
      rwa [h0] at this
    have hadd : (e + 1001#32).toInt = e.toInt + (1001#32 : BitVec 32).toInt :=
      BitVec.toInt_add_of_not_saddOverflow (by
        simp only [BitVec.saddOverflow, Nat.reduceSub, Bool.or_eq_true, decide_eq_true_eq]
        omega)
    rw [show Scalar.select (IntOp.cmpi .slt e 0#32) (IntOp.addi e 1001#32) e = e + 1001#32 from if_pos hlt, hadd, hn]
    omega
  · have hpos : 0 ≤ e.toInt := by
      by_contra hc
      exact hlt (IntOp.cmpi_slt.mpr (by rw [h0]; omega))
    rw [show Scalar.select (IntOp.cmpi .slt e 0#32) (IntOp.addi e 1001#32) e = e from if_neg hlt]
    omega

/-- A fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The row number at `(t, b, 0)`, from the transposed event there. -/
theorem takeIdx_apply (T : IVec S512x32 32) (t : Fin 512) (b : Fin 32) (u : Fin 1) :
    takeIdx T (ix3 t b u)
      = Scalar.select (IntOp.cmpi .slt (T (ix2 t b)) 0#32) (IntOp.addi (T (ix2 t b)) 1001#32) (T (ix2 t b)) := by
  unfold takeIdx
  exact broadcastInDim_apply _ _ _ (ix3 t b u) (ix2 t b) (fun a => match a with | ⟨0, _⟩ => rfl | ⟨1, _⟩ => rfl)

/-- The range test at `(t, b, 0)`. -/
theorem takeInRange_apply (T : IVec S512x32 32) (i : S512x32x1.Idx) :
    takeInRange T i = IntOp.andi (IntOp.cmpi .sge (takeIdx T i) 0#32) (IntOp.cmpi .sle (takeIdx T i) 1000#32) := rfl

/-- Every row number is in range when every transposed event is in `[−1001, 1000]`. -/
theorem takeInRange_one (T : IVec S512x32 32) (h : ∀ k : S512x32.Idx, -1001 ≤ (T k).toInt ∧ (T k).toInt ≤ 1000)
    (i : S512x32x1.Idx) : takeInRange T i = 1#1 := by
  obtain ⟨t, b, u, rfl⟩ : ∃ (t : Fin 512) (b : Fin 32) (u : Fin 1), i = ix3 t b u := ⟨i 0, i 1, i 2, eq_ix3 i⟩
  rw [takeInRange_apply, takeIdx_apply]
  exact word_inRange _ (h _).1 (h _).2

/-- So the reduced mask is one everywhere. -/
theorem takeMask_one (T : IVec S512x32 32) (h : ∀ k : S512x32.Idx, -1001 ≤ (T k).toInt ∧ (T k).toInt ≤ 1000)
    (k : S512x32.Idx) : takeMask T k = 1#1 := by
  unfold takeMask
  rw [Host.reduce_eq_foldl]
  exact foldl_andi_ones _ (takeInRange_one T h) _

/-- With every row number in range the fill is never chosen: the take is the gather. -/
theorem takeVal_eq_gather (T : IVec S512x32 32) (tbl : S1001x1024.Idx → EReal)
    (h : ∀ k : S512x32.Idx, -1001 ≤ (T k).toInt ∧ (T k).toInt ≤ 1000) :
    takeVal T tbl = Host.gather gather_S1001x1024_S512x32x1_S512x32x1024_2_0_n_n_0_2_11024 tbl (takeIdx T) := by
  funext j
  unfold takeVal
  rw [select_apply]
  have hm : broadcastInDim S512x32x1024 ![0, 1] bcast_S512x32_S512x32x1024_0_1 (takeMask T) j = 1#1 :=
    takeMask_one T h _
  rw [hm, select_one]

/-! ## The gathered rows are the specification's -/

/-- The program's gather at its row numbers is the specification's embedded rows. -/
theorem gather_eq_rows (E : IVec S32x512 32) (tbl : S1001x1024.Idx → EReal) :
    Host.gather gather_S1001x1024_S512x32x1_S512x32x1024_2_0_n_n_0_2_11024 tbl
        (takeIdx (transpose S512x32 [1, 0] E transposes_S32x512_S512x32_1_0))
      = Cert.Spec.rows E tbl := by
  unfold Cert.Spec.rows Cert.Spec.rowIdx Cert.Spec.evT Cert.Spec.gatherDims takeIdx
    gather_S1001x1024_S512x32x1_S512x32x1024_2_0_n_n_0_2_11024
  rfl

/-- The embedded rows, when every event number is in the table's range (counting a negative one from the end): the fill
    put at an out-of-range number is never chosen. -/
theorem xArr_eq (hrange : ∀ i : S32x512.Idx, -1001 ≤ (evArg m c i).toInt ∧ (evArg m c i).toInt ≤ 1000) :
    xArr m c = Cert.Spec.rows (evArg m c) (tblArg m c) := by
  have hT : ∀ k : S512x32.Idx,
      -1001 ≤ (transpose S512x32 [1, 0] (evArg m c) transposes_S32x512_S512x32_1_0 k).toInt
        ∧ (transpose S512x32 [1, 0] (evArg m c) transposes_S32x512_S512x32_1_0 k).toInt ≤ 1000 := fun k => by
    obtain ⟨t, b, rfl⟩ : ∃ (t : Fin 512) (b : Fin 32), k = ix2 t b := ⟨k 0, k 1, eq_ix2 k⟩
    rw [transpose_ix2_apply]
    exact hrange (ix2 b t)
  exact (xArr_term m c).trans ((takeVal_eq_gather _ _ hT).trans (gather_eq_rows _ _))

end Cert.KernelIdeal.HostRows

end
-- ==== Proof.HostVals.lean ====
/-
  What the region finds in four of the five arrays its windows stage, as functions of the argument arrays: the durations
  transposed, the live weights transposed (high-order half: the weights themselves; low-order half: zero), and the live
  bias.

  The third stretch of host operations cuts the first 1024 columns out of the weights, cuts from them the five live
  groups of 1024 rows (at rows 0, 2048, 3072, 4096, 6144), stacks the five, transposes the stack, and splits the result
  in a high-order half (the array narrowed) and a low-order half (the array less its widened high-order half,
  narrowed). On the extended reals narrowing and widening change nothing, so the high-order half is the transposed
  stack and the low-order half is `u − u` entry by entry, which is zero where `u` is finite. The bias is cut and
  stacked the same way. Each array is first written as a term over the argument arrays, then read at an index.
-/
import proofs.«419382_j50010599194914_3_alg».proof.Proof.Staged
import proofs.«419382_j50010599194914_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.HostVals

open Cert.KernelIdeal Cert.KernelIdeal.Gen Cert.KernelIdeal.Frame Cert.KernelIdeal.Staged Idealize.ShloMosaic Idealize.ShloMosaic.TcCoe Idealize.ShloMosaic.ValueIdx Idealize.SL.Sem

variable (m : (ℓ : Loc nD τ sig) → Buf (Elt Ideal) ℓ) (c : Dev nD)

/-! ## A five-operand operation's result -/

section Nary5
variable {τ' : Topo} {sig' : RefSig} {Val : EltTy → Type}

/-- The result of a five-operand operation, with each operand's contents at its own reference. -/
theorem nary5_result {x a b c e y : Ref sig' .tc}
    (f : ((k : Fin 5) → ((![x, a, b, c, e] : Fin 5 → Ref sig' .tc) k).ty.Contents Val) → y.ty.Contents Val) (hxs hy)
    (F : Valuation τ' sig' Val) :
    (StableHlo.nary (τ := τ') ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [StableHlo.nary_result]; congr 1; funext k; fin_cases k <;> rfl
end Nary5

/-- What a line of one-, two- and five-operand operations leaves at a reference: each operation's result at its own
    result reference is its function's value, and at any other reference what was there. -/
macro "after_results5" : tactic =>
  `(tactic| (simp only [StableHlo.after_cons, StableHlo.after_nil]
             repeat (first
               | rw [StableHlo.unary_result] | rw [StableHlo.binary_result] | rw [nary5_result]
               | (rw [StableHlo.unary_result_ne]; rotate_left; decide)
               | (rw [StableHlo.binary_result_ne]; rotate_left; decide)
               | (rw [StableHlo.nary_result_ne]; rotate_left; decide))))

/-! ## The arrays as terms -/

/-- The five live row groups of the weights' first 1024 columns, stacked. -/
def wcat (w : S7168x2048.Idx → EReal) : S5120x1024.Idx → EReal :=
  concatenate S5120x1024 0
    [⟨S1024x1024, extractStridedSlice S1024x1024 ![0, 0] (extractStridedSlice S7168x1024 ![0, 0] w slices_S7168x2048_S7168x1024_0_0) slices_S7168x1024_S1024x1024_0_0⟩,
     ⟨S1024x1024, extractStridedSlice S1024x1024 ![2048, 0] (extractStridedSlice S7168x1024 ![0, 0] w slices_S7168x2048_S7168x1024_0_0) slices_S7168x1024_S1024x1024_2048_0⟩,
     ⟨S1024x1024, extractStridedSlice S1024x1024 ![3072, 0] (extractStridedSlice S7168x1024 ![0, 0] w slices_S7168x2048_S7168x1024_0_0) slices_S7168x1024_S1024x1024_3072_0⟩,
     ⟨S1024x1024, extractStridedSlice S1024x1024 ![4096, 0] (extractStridedSlice S7168x1024 ![0, 0] w slices_S7168x2048_S7168x1024_0_0) slices_S7168x1024_S1024x1024_4096_0⟩,
     ⟨S1024x1024, extractStridedSlice S1024x1024 ![6144, 0] (extractStridedSlice S7168x1024 ![0, 0] w slices_S7168x2048_S7168x1024_0_0) slices_S7168x1024_S1024x1024_6144_0⟩]
    concatenates_S1024x1024_S1024x1024_S1024x1024_S1024x1024_S1024x1024_S5120x1024_d0

/-- The five live groups of the bias, stacked. -/
def bcat (b : S7168.Idx → EReal) : S5120.Idx → EReal :=
  concatenate S5120 0
    [⟨S1024, extractStridedSlice S1024 ![0] b slices_S7168_S1024_0⟩,
     ⟨S1024, extractStridedSlice S1024 ![2048] b slices_S7168_S1024_2048⟩,
     ⟨S1024, extractStridedSlice S1024 ![3072] b slices_S7168_S1024_3072⟩,
     ⟨S1024, extractStridedSlice S1024 ![4096] b slices_S7168_S1024_4096⟩,
     ⟨S1024, extractStridedSlice S1024 ![6144] b slices_S7168_S1024_6144⟩]
    concatenates_S1024_S1024_S1024_S1024_S1024_S5120_d0

/-- The stacked live weights transposed. -/
def wT (w : S7168x2048.Idx → EReal) : S1024x5120.Idx → EReal :=
  transpose S1024x5120 [1, 0] (wcat w) transposes_S5120x1024_S1024x5120_1_0

/-- The high-order half of the split: the stacked live weights transposed, narrowed. -/
def whi (w : S7168x2048.Idx → EReal) : S1024x5120.Idx → EReal :=
  (truncf .bf16 (wT w : FVec Ideal S1024x5120 .f32) bitsLt_bf16_f32 : FVec Ideal S1024x5120 .bf16)

/-- The low-order half of the split: what narrowing the difference of the array and its widened high-order half leaves. -/
def wlo (w : S7168x2048.Idx → EReal) : S1024x5120.Idx → EReal :=
  (truncf .bf16 (subf (wT w : FVec Ideal S1024x5120 .f32)
      (extf .f32 (truncf .bf16 (wT w : FVec Ideal S1024x5120 .f32) bitsLt_bf16_f32 : FVec Ideal S1024x5120 .bf16) bitsLt_bf16_f32))
    bitsLt_bf16_f32 : FVec Ideal S1024x5120 .bf16)

/-- The third stretch, from any contents, leaves the high-order half of the split of the weights found there. -/
theorem v17_of (W : Valuation τ sig (Elt Ideal)) :
    (StableHlo.after (hostOps0_2 (F := Ideal)) W (Proc.devRef .tc main_v17) : S1024x5120.Idx → EReal)
      = whi (W (Proc.devRef .tc main_arg3)) := by
  simp only [hostOps0_2]
  after_results5
  rfl

set_option maxHeartbeats 4000000 in
/-- The third stretch, from any contents, leaves the low-order half of the split of the weights found there. -/
theorem v20_of (W : Valuation τ sig (Elt Ideal)) :
    (StableHlo.after (hostOps0_2 (F := Ideal)) W (Proc.devRef .tc main_v20) : S1024x5120.Idx → EReal)
      = wlo (W (Proc.devRef .tc main_arg3)) := by
  simp only [hostOps0_2]
  after_results5
  rfl

set_option maxHeartbeats 4000000 in
/-- The third stretch, from any contents, leaves the stacked live groups of the bias found there. -/
theorem v15_of (W : Valuation τ sig (Elt Ideal)) :
    (StableHlo.after (hostOps0_2 (F := Ideal)) W (Proc.devRef .tc main_v15) : S5120.Idx → EReal)
      = bcat (W (Proc.devRef .tc main_arg4)) := by
  simp only [hostOps0_2]
  after_results5
  rfl

/-- The first two stretches leave the weights as launched. -/
theorem pre_arg3 (V0 : Valuation τ sig (Elt Ideal)) :
    StableHlo.after (hostOps0_1 (F := Ideal)) (StableHlo.after (hostOps0 (F := Ideal)) V0) (Proc.devRef .tc main_arg3)
      = V0 (Proc.devRef .tc main_arg3) := by
  simp only [hostOps0, hostOps0_1]
  after_results

/-- The first two stretches leave the bias as launched. -/
theorem pre_arg4 (V0 : Valuation τ sig (Elt Ideal)) :
    StableHlo.after (hostOps0_1 (F := Ideal)) (StableHlo.after (hostOps0 (F := Ideal)) V0) (Proc.devRef .tc main_arg4)
      = V0 (Proc.devRef .tc main_arg4) := by
  simp only [hostOps0, hostOps0_1]
  after_results

/-- The three stretches one after the other. -/
theorem V_split (r : Ref sig .tc) :
    V m c r = StableHlo.after (hostOps0_2 (F := Ideal)) (StableHlo.after (hostOps0_1 (F := Ideal))
      (StableHlo.after (hostOps0 (F := Ideal)) (fun b => m (c, b)))) (Proc.devRef .tc r) := by
  dsimp only [V]
  simp only [List.flatten_cons, List.flatten_nil, List.append_nil]
  rw [StableHlo.after_append, StableHlo.after_append]

theorem whiArr_eq : whiArr m c = whi (wArg m c) := by
  show (V m c main_v17 : S1024x5120.Idx → EReal) = _
  rw [V_split, v17_of, pre_arg3]

theorem wloArr_eq : wloArr m c = wlo (wArg m c) := by
  show (V m c main_v20 : S1024x5120.Idx → EReal) = _
  rw [V_split, v20_of, pre_arg3]

theorem biasArr_eq : biasArr m c = bcat (bArg m c) := by
  show (V m c main_v15 : S5120.Idx → EReal) = _
  rw [V_split, v15_of, pre_arg4]

theorem durArr_eq : (V m c main_v1 : S512x32.Idx → EReal)
    = transpose S512x32 [1, 0] (durArg m c) transposes_S32x512_S512x32_1_0 := by
  dsimp only [V]
  simp only [hostOps0, hostOps0_1, hostOps0_2, List.flatten_cons, List.flatten_nil, List.append_nil, List.cons_append, List.nil_append]
  after_results

/-! ## The arrays read at an index -/

/-- A live row group of the weights' first 1024 columns, read at an index: the weight at the group's row. -/
theorem wpiece_apply (w : S7168x2048.Idx → EReal) (off : Nat) (hs : S7168x1024.Slices ![off, 0] S1024x1024)
    (h k : Fin 1024) (r : Fin 7168) (hr : r.val = off + h.val) :
    extractStridedSlice S1024x1024 ![off, 0] (extractStridedSlice S7168x1024 ![0, 0] w slices_S7168x2048_S7168x1024_0_0) hs (ix2 h k)
      = w (ix2 r (Fin.castLE (by decide) k)) := by
  refine (extractStridedSlice_apply _ _ hs (ix2 h k) (ix2 r k) ?_).trans ?_
  · intro a
    match a with
    | ⟨0, _⟩ => exact hr
    | ⟨1, _⟩ => exact (Nat.zero_add _).symm
  · refine extractStridedSlice_apply _ w _ (ix2 r k) (ix2 r (Fin.castLE (by decide) k)) ?_
    intro a
    match a with
    | ⟨0, _⟩ => exact (Nat.zero_add _).symm
    | ⟨1, _⟩ => exact (Nat.zero_add _).symm

/-- A live group of the bias, read at an index: the bias at the group's row. -/
theorem bpiece_apply (b : S7168.Idx → EReal) (off : Nat) (hs : S7168.Slices ![off] S1024)
    (h : Fin 1024) (r : Fin 7168) (hr : r.val = off + h.val) :
    extractStridedSlice S1024 ![off] b hs (ix1 h) = b (ix1 r) := by
  refine extractStridedSlice_apply _ b hs (ix1 h) (ix1 r) ?_
  intro a
  match a with
  | ⟨0, _⟩ => exact hr

/-- Five square pieces stacked along the rows, read at row `s · 1024 + h`: piece `s` at row `h`. -/
theorem cat5_apply (x0 x1 x2 x3 x4 : S1024x1024.Idx → EReal)
    (hc : Shape.Concatenates [S1024x1024, S1024x1024, S1024x1024, S1024x1024, S1024x1024] S5120x1024 0)
    (s : Fin 5) (h k : Fin 1024) :
    concatenate S5120x1024 0 [⟨S1024x1024, x0⟩, ⟨S1024x1024, x1⟩, ⟨S1024x1024, x2⟩, ⟨S1024x1024, x3⟩, ⟨S1024x1024, x4⟩] hc
        (ix2 (Cert.Spec.liveCol s h) k)
      = (![x0, x1, x2, x3, x4] : Fin 5 → S1024x1024.Idx → EReal) s (ix2 h k) := by
  have hi : ∀ b : Fin S1024x1024.rank, b.cast (rfl : S1024x1024.rank = S5120x1024.rank) ≠ (0 : Fin S5120x1024.rank) →
      ∀ col : Fin 5120, ((ix2 h k : S1024x1024.Idx) b).val = ((ix2 col k : S5120x1024.Idx) (b.cast rfl)).val := by
    intro b hb col
    match b with
    | ⟨0, _⟩ => exact absurd rfl hb
    | ⟨1, _⟩ => rfl
  match s with
  | ⟨0, _⟩ =>
    exact concatenate_apply_piece (0 : Fin S5120x1024.rank)
      [⟨S1024x1024, x0⟩, ⟨S1024x1024, x1⟩, ⟨S1024x1024, x2⟩, ⟨S1024x1024, x3⟩, ⟨S1024x1024, x4⟩] hc _ 0 (by show (0 : ℕ) < 5; omega)
      S1024x1024 x0 rfl rfl (0 * 1024) rfl (ix2 h k) (fun b hb => hi b hb _) rfl
  | ⟨1, _⟩ =>
    exact concatenate_apply_piece (0 : Fin S5120x1024.rank)
      [⟨S1024x1024, x0⟩, ⟨S1024x1024, x1⟩, ⟨S1024x1024, x2⟩, ⟨S1024x1024, x3⟩, ⟨S1024x1024, x4⟩] hc _ 1 (by show (1 : ℕ) < 5; omega)
      S1024x1024 x1 rfl rfl (1 * 1024) rfl (ix2 h k) (fun b hb => hi b hb _) rfl
  | ⟨2, _⟩ =>
    exact concatenate_apply_piece (0 : Fin S5120x1024.rank)
      [⟨S1024x1024, x0⟩, ⟨S1024x1024, x1⟩, ⟨S1024x1024, x2⟩, ⟨S1024x1024, x3⟩, ⟨S1024x1024, x4⟩] hc _ 2 (by show (2 : ℕ) < 5; omega)
      S1024x1024 x2 rfl rfl (2 * 1024) rfl (ix2 h k) (fun b hb => hi b hb _) rfl
  | ⟨3, _⟩ =>
    exact concatenate_apply_piece (0 : Fin S5120x1024.rank)
      [⟨S1024x1024, x0⟩, ⟨S1024x1024, x1⟩, ⟨S1024x1024, x2⟩, ⟨S1024x1024, x3⟩, ⟨S1024x1024, x4⟩] hc _ 3 (by show (3 : ℕ) < 5; omega)
      S1024x1024 x3 rfl rfl (3 * 1024) rfl (ix2 h k) (fun b hb => hi b hb _) rfl
  | ⟨4, _⟩ =>
    exact concatenate_apply_piece (0 : Fin S5120x1024.rank)
      [⟨S1024x1024, x0⟩, ⟨S1024x1024, x1⟩, ⟨S1024x1024, x2⟩, ⟨S1024x1024, x3⟩, ⟨S1024x1024, x4⟩] hc _ 4 (by show (4 : ℕ) < 5; omega)
      S1024x1024 x4 rfl rfl (4 * 1024) rfl (ix2 h k) (fun b hb => hi b hb _) rfl

/-- Five vectors laid end to end, read at `s · 1024 + h`: vector `s` at `h`. -/
theorem cat5v_apply (x0 x1 x2 x3 x4 : S1024.Idx → EReal)
    (hc : Shape.Concatenates [S1024, S1024, S1024, S1024, S1024] S5120 0) (s : Fin 5) (h : Fin 1024) :
    concatenate S5120 0 [⟨S1024, x0⟩, ⟨S1024, x1⟩, ⟨S1024, x2⟩, ⟨S1024, x3⟩, ⟨S1024, x4⟩] hc (ix1 (Cert.Spec.liveCol s h))
      = (![x0, x1, x2, x3, x4] : Fin 5 → S1024.Idx → EReal) s (ix1 h) := by
  have hi : ∀ b : Fin S1024.rank, b.cast (rfl : S1024.rank = S5120.rank) ≠ (0 : Fin S5120.rank) →
      ∀ col : Fin 5120, ((ix1 h : S1024.Idx) b).val = ((ix1 col : S5120.Idx) (b.cast rfl)).val := by
    intro b hb col
    match b with
    | ⟨0, _⟩ => exact absurd rfl hb
  match s with
  | ⟨0, _⟩ =>
    exact concatenate_apply_piece (0 : Fin S5120.rank)
      [⟨S1024, x0⟩, ⟨S1024, x1⟩, ⟨S1024, x2⟩, ⟨S1024, x3⟩, ⟨S1024, x4⟩] hc _ 0 (by show (0 : ℕ) < 5; omega)
      S1024 x0 rfl rfl (0 * 1024) rfl (ix1 h) (fun b hb => hi b hb _) rfl
  | ⟨1, _⟩ =>
    exact concatenate_apply_piece (0 : Fin S5120.rank)
      [⟨S1024, x0⟩, ⟨S1024, x1⟩, ⟨S1024, x2⟩, ⟨S1024, x3⟩, ⟨S1024, x4⟩] hc _ 1 (by show (1 : ℕ) < 5; omega)
      S1024 x1 rfl rfl (1 * 1024) rfl (ix1 h) (fun b hb => hi b hb _) rfl
  | ⟨2, _⟩ =>
    exact concatenate_apply_piece (0 : Fin S5120.rank)
      [⟨S1024, x0⟩, ⟨S1024, x1⟩, ⟨S1024, x2⟩, ⟨S1024, x3⟩, ⟨S1024, x4⟩] hc _ 2 (by show (2 : ℕ) < 5; omega)
      S1024 x2 rfl rfl (2 * 1024) rfl (ix1 h) (fun b hb => hi b hb _) rfl
  | ⟨3, _⟩ =>
    exact concatenate_apply_piece (0 : Fin S5120.rank)
      [⟨S1024, x0⟩, ⟨S1024, x1⟩, ⟨S1024, x2⟩, ⟨S1024, x3⟩, ⟨S1024, x4⟩] hc _ 3 (by show (3 : ℕ) < 5; omega)
      S1024 x3 rfl rfl (3 * 1024) rfl (ix1 h) (fun b hb => hi b hb _) rfl
  | ⟨4, _⟩ =>
    exact concatenate_apply_piece (0 : Fin S5120.rank)
      [⟨S1024, x0⟩, ⟨S1024, x1⟩, ⟨S1024, x2⟩, ⟨S1024, x3⟩, ⟨S1024, x4⟩] hc _ 4 (by show (4 : ℕ) < 5; omega)
      S1024 x4 rfl rfl (4 * 1024) rfl (ix1 h) (fun b hb => hi b hb _) rfl

/-- The stacked live weights at row `s · 1024 + h`: the weights at the live row. -/
theorem wcat_apply (w : S7168x2048.Idx → EReal) (s : Fin 5) (h k : Fin 1024) :
    wcat w (ix2 (Cert.Spec.liveCol s h) k) = w (ix2 (Cert.Spec.liveRow s h) (Fin.castLE (by decide) k)) := by
  unfold wcat
  refine (cat5_apply _ _ _ _ _ _ s h k).trans ?_
  match s with
  | ⟨0, _⟩ => exact wpiece_apply w 0 slices_S7168x1024_S1024x1024_0_0 h k _ rfl
  | ⟨1, _⟩ => exact wpiece_apply w 2048 slices_S7168x1024_S1024x1024_2048_0 h k _ rfl
  | ⟨2, _⟩ => exact wpiece_apply w 3072 slices_S7168x1024_S1024x1024_3072_0 h k _ rfl
  | ⟨3, _⟩ => exact wpiece_apply w 4096 slices_S7168x1024_S1024x1024_4096_0 h k _ rfl
  | ⟨4, _⟩ => exact wpiece_apply w 6144 slices_S7168x1024_S1024x1024_6144_0 h k _ rfl

/-- The stacked live bias at `s · 1024 + h`: the bias at the live row. -/
theorem bcat_apply (b : S7168.Idx → EReal) (s : Fin 5) (h : Fin 1024) :
    bcat b (ix1 (Cert.Spec.liveCol s h)) = b (ix1 (Cert.Spec.liveRow s h)) := by
  unfold bcat
  refine (cat5v_apply _ _ _ _ _ _ s h).trans ?_
  match s with
  | ⟨0, _⟩ => exact bpiece_apply b 0 slices_S7168_S1024_0 h _ rfl
  | ⟨1, _⟩ => exact bpiece_apply b 2048 slices_S7168_S1024_2048 h _ rfl
  | ⟨2, _⟩ => exact bpiece_apply b 3072 slices_S7168_S1024_3072 h _ rfl
  | ⟨3, _⟩ => exact bpiece_apply b 4096 slices_S7168_S1024_4096 h _ rfl
  | ⟨4, _⟩ => exact bpiece_apply b 6144 slices_S7168_S1024_6144 h _ rfl

/-- The stacked live weights transposed, at column `s · 1024 + h`. -/
theorem wT_apply (w : S7168x2048.Idx → EReal) (k : Fin 1024) (s : Fin 5) (h : Fin 1024) :
    wT w (ix2 k (Cert.Spec.liveCol s h)) = w (ix2 (Cert.Spec.liveRow s h) (Fin.castLE (by decide) k)) := by
  unfold wT
  exact (transpose_ix2_apply (wcat w) transposes_S5120x1024_S1024x5120_1_0 k (Cert.Spec.liveCol s h)).trans (wcat_apply w s h k)

/-- Every column is a live column. -/
theorem exists_liveCol (col : Fin 5120) : ∃ (s : Fin 5) (h : Fin 1024), col = Cert.Spec.liveCol s h :=
  ⟨⟨col.val / 1024, by have := col.isLt; omega⟩, ⟨col.val % 1024, Nat.mod_lt _ (by decide)⟩, Fin.ext (by
    show col.val = col.val / 1024 * 1024 + col.val % 1024
    omega)⟩

/-- Every entry of the stacked live weights transposed is a weight. -/
theorem wT_mem (w : S7168x2048.Idx → EReal) (i : S1024x5120.Idx) : ∃ j, wT w i = w j := by
  obtain ⟨k, col, rfl⟩ : ∃ (k : Fin 1024) (col : Fin 5120), i = ix2 k col := ⟨i 0, i 1, eq_ix2 i⟩
  obtain ⟨s, h, rfl⟩ := exists_liveCol col
  exact ⟨_, wT_apply w k s h⟩

/-- On the extended reals narrowing changes nothing. -/
theorem whi_apply (w : S7168x2048.Idx → EReal) (i : S1024x5120.Idx) : whi w i = wT w i := rfl

/-- On the extended reals the low-order half is each entry less itself. -/
theorem wlo_apply (w : S7168x2048.Idx → EReal) (i : S1024x5120.Idx) : wlo w i = wT w i - wT w i := rfl

/-! ## The four arrays -/

/-- The durations transposed. -/
theorem durArr_apply (t : Fin 512) (b : Fin 32) : durArr m c (ix2 t b) = durArg m c (ix2 b t) := by
  show (V m c main_v1 : S512x32.Idx → EReal) (ix2 t b) = _
  rw [durArr_eq]
  exact transpose_ix2_apply _ _ t b

/-- The high-order half of the split weights: at the extended reals, the live weights transposed. -/
theorem whiArr_apply (k : Fin 1024) (s : Fin 5) (h : Fin 1024) :
    whiArr m c (ix2 k (Cert.Spec.liveCol s h)) = wArg m c (ix2 (Cert.Spec.liveRow s h) (Fin.castLE (by decide) k)) := by
  rw [whiArr_eq, whi_apply]
  exact wT_apply _ k s h

/-- The low-order half of the split weights: zero, the weights being finite. -/
theorem wloArr_apply (hW : ∀ i, ∃ r : ℝ, wArg m c i = (r : EReal)) (i : S1024x5120.Idx) : wloArr m c i = 0 := by
  rw [wloArr_eq, wlo_apply]
  obtain ⟨j, hj⟩ := wT_mem (wArg m c) i
  obtain ⟨r, hr⟩ := hW j
  rw [hj, hr, ← EReal.coe_sub, sub_self, EReal.coe_zero]

/-- The live bias. -/
theorem biasArr_apply (s : Fin 5) (h : Fin 1024) :
    biasArr m c (ix1 (Cert.Spec.liveCol s h)) = bArg m c (ix1 (Cert.Spec.liveRow s h)) := by
  rw [biasArr_eq]
  exact bcat_apply _ s h

end Cert.KernelIdeal.HostVals

end
-- ==== Proof.KernelValue.lean ====
/-
  The kernel program's result array after the run is the specification's function of the argument arrays.

  Grid point `t` of the sixty-four handles time steps `8t … 8t + 7`: its block of the embedded rows and of the durations
  is rows `8t + tt` of those arrays, the weights and the bias are staged whole, and its output block is
  `[·, 8t + tt, ·, ·]` of the result. What the body leaves in the output block is, index by index, the cell of the five
  pre-activations of the row (`Payload.out5_apply`); read through the blocks, those are the specification's
  pre-activations of time step `8t + tt`, because the staged arrays are the embedded rows, the transposed durations, the
  live weights transposed and the live bias, and the low-order weights are zero. The sixty-four output blocks tile the
  result array, so the array ends at the specification everywhere.
-/
import proofs.«419382_j50010599194914_3_alg».proof.Proof.Staged
import proofs.«419382_j50010599194914_3_alg».proof.Proof.Spec
import proofs.«419382_j50010599194914_3_alg».proof.Proof.Payload
import proofs.«419382_j50010599194914_3_alg».proof.Proof.HostRows
import proofs.«419382_j50010599194914_3_alg».proof.Proof.HostVals
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frame Cert.KernelIdeal.Staged
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- What the precondition gives, on core `c`: the event numbers in range, the table and the weights finite. -/
structure Hyps : Prop where
  range : ∀ i : S32x512.Idx, -1001 ≤ (evArg m c i).toInt ∧ (evArg m c i).toInt ≤ 1000
  tbl : ∀ i, ∃ r : ℝ, tblArg m c i = (r : EReal)
  w : ∀ i, ∃ r : ℝ, wArg m c i = (r : EReal)

/-- The specification at core `c`'s argument arrays. -/
abbrev Gm : S5x512x32x1024.Idx → EReal :=
  Cert.Spec.G (evArg m c) (durArg m c) (tblArg m c) (wArg m c) (bArg m c)

/-! ## The index maps -/

/-- The printed index maps, decided over the grid: the rows and durations move with the point along the time axis, the
    weights and the bias stay, and the output block moves along its second axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

theorem t_lt (t : Fin cfg0.N) : t.val < 64 := lt_of_lt_of_eq t.isLt N_0

/-- Time step `8t + tt`. -/
def step (t : Fin cfg0.N) (tt : Fin 8) : Fin 512 := ⟨t.val * 8 + tt.val, by have := t_lt t; omega⟩

/-! ## The input blocks, read -/

/-- The five input blocks of point `t`, at their literal types. -/
abbrev xblk (t : Fin cfg0.N) : S8x32x1024.Idx → EReal := iblk m c 0 t
abbrev dblk (t : Fin cfg0.N) : S8x32.Idx → EReal := iblk m c 1 t
abbrev whblk (t : Fin cfg0.N) : S1024x5120.Idx → EReal := iblk m c 2 t
abbrev wlblk (t : Fin cfg0.N) : S1024x5120.Idx → EReal := iblk m c 3 t
abbrev bblk (t : Fin cfg0.N) : S5120.Idx → EReal := iblk m c 4 t

theorem xblk_apply (t : Fin cfg0.N) (tt : Fin 8) (bb : Fin 32) (k : Fin 1024) :
    xblk m c t (ix3 tt bb k) = xArr m c (ix3 (step t tt) bb k) := by
  obtain ⟨e0, e1, e2, -⟩ := idx_facts t
  show xArr m c (((cfg0.win 0).blk t).view.emb (ix3 tt bb k)) = _
  refine congrArg _ ?_
  funext a; apply Fin.ext
  match a with
  | ⟨0, _⟩ => show win0_0.index t (0 : Fin 3) * 8 + 1 * tt.val = t.val * 8 + tt.val; omega
  | ⟨1, _⟩ => show win0_0.index t (1 : Fin 3) * 32 + 1 * bb.val = bb.val; omega
  | ⟨2, _⟩ => show win0_0.index t (2 : Fin 3) * 1024 + 1 * k.val = k.val; omega

/-- An entry of the block of embedded rows is an entry of the array of embedded rows. -/
theorem xblk_mem (t : Fin cfg0.N) (i : S8x32x1024.Idx) : ∃ j, xblk m c t i = xArr m c j := ⟨_, rfl⟩

theorem dblk_apply (t : Fin cfg0.N) (tt : Fin 8) (bb : Fin 32) :
    dblk m c t (ix2 tt bb) = durArr m c (ix2 (step t tt) bb) := by
  obtain ⟨-, -, -, e0, e1, -⟩ := idx_facts t
  show durArr m c (((cfg0.win 1).blk t).view.emb (ix2 tt bb)) = _
  refine congrArg _ ?_
  funext a; apply Fin.ext
  match a with
  | ⟨0, _⟩ => show win0_1.index t (0 : Fin 2) * 8 + 1 * tt.val = t.val * 8 + tt.val; omega
  | ⟨1, _⟩ => show win0_1.index t (1 : Fin 2) * 32 + 1 * bb.val = bb.val; omega

theorem whblk_apply (t : Fin cfg0.N) (k : Fin 1024) (col : Fin 5120) :
    whblk m c t (ix2 k col) = whiArr m c (ix2 k col) := by
  obtain ⟨-, -, -, -, -, e0, e1, -⟩ := idx_facts t
  show whiArr m c (((cfg0.win 2).blk t).view.emb (ix2 k col)) = _
  refine congrArg _ ?_
  funext a; apply Fin.ext
  match a with
  | ⟨0, _⟩ => show win0_2.index t (0 : Fin 2) * 1024 + 1 * k.val = k.val; omega
  | ⟨1, _⟩ => show win0_2.index t (1 : Fin 2) * 5120 + 1 * col.val = col.val; omega

/-- An entry of the block of low-order weights is an entry of the array of low-order weights. -/
theorem wlblk_mem (t : Fin cfg0.N) (i : S1024x5120.Idx) : ∃ j, wlblk m c t i = wloArr m c j := ⟨_, rfl⟩

theorem bblk_apply (t : Fin cfg0.N) (col : Fin 5120) :
    bblk m c t (ix1 col) = biasArr m c (ix1 col) := by
  obtain ⟨-, -, -, -, -, -, -, -, -, e0, -⟩ := idx_facts t
  show biasArr m c (((cfg0.win 4).blk t).view.emb (ix1 col)) = _
  refine congrArg _ ?_
  funext a; apply Fin.ext
  match a with
  | ⟨0, _⟩ => show win0_4.index t (0 : Fin 1) * 5120 + 1 * col.val = col.val; omega

/-! ## What a point writes back -/

/-- The cell depends on its five pre-activations and its duration only. -/
theorem cell_congr (g : Fin 5) {p p' : Fin 5 → EReal} {d d' : EReal} (hp : ∀ s, p s = p' s) (hd : d = d') :
    Cert.Spec.cell g p d = Cert.Spec.cell g p' d' := by
  rw [funext hp, hd]

/-- The output block of point `t` at an index is the specification at time step `8t + tt`. -/
theorem out5_blk_apply (h : Hyps m c) (t : Fin cfg0.N) (g : Fin 5) (tt : Fin 8) (bb : Fin 32) (hh : Fin 1024) :
    out5 (F := Ideal) (xblk m c t) (dblk m c t) (whblk m c t) (wlblk m c t) (bblk m c t) (ix4 g tt bb hh)
      = Cert.Spec.cellAt (evArg m c) (durArg m c) (tblArg m c) (wArg m c) (bArg m c) g (step t tt) bb hh := by
  have hrows := Cert.KernelIdeal.HostRows.xArr_eq m c h.range
  have hx : ∀ i, ∃ r : ℝ, xblk m c t i = (r : EReal) := fun i => by
    obtain ⟨j, hj⟩ := xblk_mem m c t i
    obtain ⟨j', hj'⟩ := Cert.Spec.rows_mem (evArg m c) (tblArg m c) j
    rw [hj, hrows, hj']; exact h.tbl j'
  have hwl : ∀ i, wlblk m c t i = (0 : EReal) := fun i => by
    obtain ⟨j, hj⟩ := wlblk_mem m c t i
    rw [hj]; exact Cert.KernelIdeal.HostVals.wloArr_apply m c h.w j
  refine (Cert.KernelIdeal.Payload.out5_apply (xblk m c t) (dblk m c t) (whblk m c t) (wlblk m c t) (bblk m c t) hx hwl g tt bb hh).trans ?_
  unfold Cert.Spec.blockCell Cert.Spec.cellAt
  refine cell_congr g (fun s => ?_) ?_
  · unfold Cert.Spec.pre
    refine congrArg₂ (· + ·) (Finset.sum_congr rfl fun k _ => ?_) ?_
    · rw [xblk_apply, whblk_apply, hrows, Cert.KernelIdeal.HostVals.whiArr_apply]
    · rw [bblk_apply, Cert.KernelIdeal.HostVals.biasArr_apply]
  · rw [dblk_apply, Cert.KernelIdeal.HostVals.durArr_apply]

/-- WHAT POINT `t` WRITES BACK is block `t` of the specification. -/
theorem flushed_eq (h : Hyps m c) (t : Fin cfg0.N) :
    (dats m 0 c).flushed 5 t = ((cfg0.win 5).blk t).view.read (Elt Ideal) (Gm m c) := by
  show (cfg0.win 5).cut (grid0.coords t) ((dats m 0 c).after 5 t) = _
  rw [after5]
  obtain ⟨-, -, -, -, -, -, -, -, -, -, e0, e1, e2, e3⟩ := idx_facts t
  funext j
  obtain ⟨g, tt, bb, hh, rfl⟩ : ∃ (g : Fin 5) (tt : Fin 8) (bb : Fin 32) (hh : Fin 1024), j = ix4 g tt bb hh :=
    ⟨j 0, j 1, j 2, j 3, eq_ix4 j⟩
  refine (out5_blk_apply m c h t g tt bb hh).trans ?_
  show _ = Gm m c (((cfg0.win 5).blk t).view.emb (ix4 g tt bb hh))
  have he : ((cfg0.win 5).blk t).view.emb (ix4 g tt bb hh) = ix4 g (step t tt) bb hh := by
    funext a; apply Fin.ext
    match a with
    | ⟨0, _⟩ => show win0_5.index t (0 : Fin 4) * 5 + 1 * g.val = g.val; omega
    | ⟨1, _⟩ => show win0_5.index t (1 : Fin 4) * 8 + 1 * tt.val = t.val * 8 + tt.val; omega
    | ⟨2, _⟩ => show win0_5.index t (2 : Fin 4) * 32 + 1 * bb.val = bb.val; omega
    | ⟨3, _⟩ => show win0_5.index t (3 : Fin 4) * 1024 + 1 * hh.val = hh.val; omega
  rw [he]
  rfl

/-! ## The cover -/

/-- An index of the result array is in point `t`'s block iff each coordinate is in the block's range on its axis. -/
theorem mem_blk (t : Fin cfg0.N) (i : S5x512x32x1024.Idx) :
    i ∈ ((cfg0.win 5).blk t).view.set ↔ ∀ a : Fin 4, win0_5.index t a * S5x8x32x1024.size a ≤ (i a).val ∧ (i a).val < win0_5.index t a * S5x8x32x1024.size a + S5x8x32x1024.size a := by
  show i ∈ ((View.whole main_v21).slice (win0_5.rect t)).set ↔ _
  rw [View.set_slice_whole, Rect.mem_set_unit]
  exact Iff.rfl

/-- Every index of the result array lies in the block of the point that handles its time step. -/
theorem cover (i : S5x512x32x1024.Idx) : ∃ t : Fin cfg0.N, (cfg0.win 5).flush t = true ∧ i ∈ ((cfg0.win 5).blk t).view.set := by
  have hi0 : (i 0).val < 5 := (i 0).isLt
  have hi1 : (i 1).val < 512 := (i 1).isLt
  have hi2 : (i 2).val < 32 := (i 2).isLt
  have hi3 : (i 3).val < 1024 := (i 3).isLt
  let t : Fin cfg0.N := ⟨(i 1).val / 8, by rw [show cfg0.N = 64 from N_0]; omega⟩
  obtain ⟨-, -, -, -, -, -, -, -, -, -, e0, e1, e2, e3⟩ := idx_facts t
  have ht : t.val = (i 1).val / 8 := rfl
  refine ⟨t, flush0_5 t, ?_⟩
  rw [mem_blk]
  intro a
  match a with
  | ⟨0, _⟩ => show win0_5.index t (0 : Fin 4) * 5 ≤ (i 0).val ∧ (i 0).val < win0_5.index t (0 : Fin 4) * 5 + 5; omega
  | ⟨1, _⟩ => show win0_5.index t (1 : Fin 4) * 8 ≤ (i 1).val ∧ (i 1).val < win0_5.index t (1 : Fin 4) * 8 + 8; omega
  | ⟨2, _⟩ => show win0_5.index t (2 : Fin 4) * 32 ≤ (i 2).val ∧ (i 2).val < win0_5.index t (2 : Fin 4) * 32 + 32; omega
  | ⟨3, _⟩ => show win0_5.index t (3 : Fin 4) * 1024 ≤ (i 3).val ∧ (i 3).val < win0_5.index t (3 : Fin 4) * 1024 + 1024; omega

/-! ## The array after the run -/

/-- THE RESULT ARRAY after the run is the specification of the argument arrays. -/
theorem final (h : Hyps m c) : (dats m 0 c).arrAt 5 cfg0.N = Gm m c :=
  (dats m 0 c).arrAt_eq_of_cover 5 (Gm m c) (fun t _ => flushed_eq m c h t) (cover)

/-- THE RUN, read: under the hypotheses on every core, every weakly fair execution terminates with the result array at the
    specification of the argument arrays and the arguments as launched. -/
theorem run (h : ∀ c, Hyps m c) : θ_run defs (onTc (τ := τ) (main (F := Ideal))) ⟨m, fun _ => 0, ρ⟩ (fun r => ∀ c : Dev nD,
      r.2.mem ((c.tc : Thread nD τ).loc main_v21) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(hr c).1.trans (final m c (h c)), (hr c).2⟩) (run_named m ρ)

end Cert.KernelIdeal.KValue

end
-- ==== Proof.PreFacts.lean ====
/-
  The precondition read: every duration, table entry, weight and bias is finite, and every event number lies in
  `[−1001, 1000]`, the range in which it names a table row (a negative number counting from the end).
-/
import proofs.«419382_j50010599194914_3_alg».proof.Pre_finite_inputs
import proofs.«419382_j50010599194914_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- A shape of rank zero has one index. -/
instance subsingleton_scalar_idx : Subsingleton S_.Idx := ⟨fun _ _ => funext fun d => d.elim0⟩

/-- The pattern `0x7F800000` denotes `+∞`. -/
theorem inf_eq_top : Ideal.ofBits .f32 0x7F800000#32 = (⊤ : EReal) := by simp [Ideal.ofBits, Ideal.ieee]

/-- An extended real whose absolute value `max x (−x)` lies strictly below `+∞` is a real: at `⊥` and at `⊤` the
    absolute value is `⊤`. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- `jnp.all(|a| < +∞)` being one: every entry of `a` is a real. -/
theorem all_real {S : Shape} {axes : List (Fin S.rank)} (a : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf a) (broadcastInDim S ![] hb (constant (F := Ideal) S_ .f32 0x7F800000#32)))
      init hr hu ix0 = 1#1) (i : S.Idx) : ∃ r : ℝ, a i = (r : EReal) :=
  real_of_abs_lt (a i) (Host.reduce_andi_all _ init hr hu ix0 e i)

/-- `jnp.all((a ≥ −1001) & (a ≤ 1000))` being one: every entry's signed value lies in `[−1001, 1000]`. -/
theorem all_in_range {S : Shape} {axes : List (Fin S.rank)} (a : IVec S 32)
    (hb : S_.BroadcastsInDim S (![] : Fin 0 → Fin S.rank)) (hr : S.ReducesTo axes S_) (hu : 0 < S_.numel) (init : IVec S_ 1)
    (e : Host.reduce IntOp.andi
      (andi (cmpi .sge a (broadcastInDim S ![] hb (constantI S_ 32 4294966295#32)))
        (cmpi .sle a (broadcastInDim S ![] hb (constantI S_ 32 1000#32)))) init hr hu ix0 = 1#1) (i : S.Idx) :
    -1001 ≤ (a i).toInt ∧ (a i).toInt ≤ 1000 := by
  obtain ⟨h1, h2⟩ := IntOp.andi_eq_one.1 (Host.reduce_andi_all _ init hr hu ix0 e i)
  have lo : (4294966295#32 : BitVec 32).toInt = -1001 := by decide
  have hi : (1000#32 : BitVec 32).toInt = 1000 := by decide
  have h1' : (4294966295#32 : BitVec 32).toInt ≤ (a i).toInt := IntOp.cmpi_sge.1 h1
  have h2' : (a i).toInt ≤ (1000#32 : BitVec 32).toInt := IntOp.cmpi_sle.1 h2
  rw [lo] at h1'
  rw [hi] at h2'
  exact ⟨h1', h2'⟩

/-- What the precondition says of the arrays it is stated of. -/
theorem of_fn (a0 : IVec S32x512 32) (a1 : FVec Ideal S32x512 .f32) (a2 : FVec Ideal S1001x1024 .f32) (a3 : FVec Ideal S7168x2048 .f32)
    (a4 : FVec Ideal S7168 .f32) (h : Cert.Pre_finite_inputs.fn (F := Ideal) a0 a1 a2 a3 a4 = fun _ => 1#1) :
    (∀ i, -1001 ≤ (a0 i).toInt ∧ (a0 i).toInt ≤ 1000) ∧ (∀ i, ∃ r : ℝ, a2 i = (r : EReal)) ∧ (∀ i, ∃ r : ℝ, a3 i = (r : EReal)) := by
  have h0 := congrFun h ValueIdx.ix0
  dsimp only [fn, fn_part1] at h0
  obtain ⟨h18, h24⟩ := IntOp.andi_eq_one.1 h0
  obtain ⟨h13, _⟩ := IntOp.andi_eq_one.1 h18
  obtain ⟨h8, h12⟩ := IntOp.andi_eq_one.1 h13
  obtain ⟨_, h7⟩ := IntOp.andi_eq_one.1 h8
  exact ⟨fun i => all_in_range a0 _ _ _ _ h24 i, fun i => all_real a2 _ _ _ _ h7 i, fun i => all_real a3 _ _ _ _ h12 i⟩

end Cert.PreFacts

end
-- ==== Proof.RefRead.lean ====
/-
  The reference program's run and its stages, made available to the modules that compare the two programs.
-/
import proofs.«419382_j50010599194914_3_alg».proof.Proof.Gen.ReferenceIdeal.Run
import proofs.«419382_j50010599194914_3_alg».proof.Proof.Gen.ReferenceIdeal.Read
-- ==== Proof.RefIsSpec.lean ====
/-
  The reference program's result, as its run states it, is the specification's function of the argument arrays.

  Entry `(g, t, b, h)` of the result is entry `(0, t, b, h)` of the `g`-th of five stacked arrays. Each of them is, entry by
  entry, a function of five entries of one biased product `∑ₖ X[t, b, k] · W[r, k] + bias[r]`, those in the columns
  `r = 0·1024 + h, 2·1024 + h, 3·1024 + h, 4·1024 + h, 6·1024 + h` — the five live pre-activations — and of the duration at
  `(b, t)`: `1 / (1 + e^(−a))` with both ones the literal `1` is the logistic function; the reference's softplus compares a
  value with itself (unequal nowhere), so it is `max a 0 + log (1 + e^(−|a − 0|))` with `|a| = max a (−a)`.
-/
import proofs.«419382_j50010599194914_3_alg».proof.Proof.RefRead
import proofs.«419382_j50010599194914_3_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The embedded rows and the pre-activations -/

/-- The gathered rows are the specification's embedded rows. -/
theorem rows_eq (x0 : (⟨S32x512, .i32⟩ : BufTy).Contents (Elt Ideal)) (x2 : (⟨S1001x1024, .f32⟩ : BufTy).Contents (Elt Ideal)) :
    Read.val_main_v8 (F := Ideal) x0 x2 = Cert.Spec.rows x0 x2 := rfl

section
variable (x0 : (⟨S32x512, .i32⟩ : BufTy).Contents (Elt Ideal)) (x1 : (⟨S32x512, .f32⟩ : BufTy).Contents (Elt Ideal))
  (x2 : (⟨S1001x1024, .f32⟩ : BufTy).Contents (Elt Ideal)) (x3 : (⟨S7168x2048, .f32⟩ : BufTy).Contents (Elt Ideal))
  (x4 : (⟨S7168, .f32⟩ : BufTy).Contents (Elt Ideal))

/-- The biased product at `(t, b, r)` is the pre-activation of gate row `r`. -/
theorem pre_eq (t : Fin 512) (b : Fin 32) (r : Fin 7168) :
    Read.val_main_v13 (F := Ideal) x0 x2 x3 x4 (ix3 t b r) = Cert.Spec.pre (Cert.Spec.rows x0 x2) x3 x4 t b r := by
  have el : ∀ k : Fin 1024, Read.lidx_main_v10 (ix3 t b r) k = ix3 t b k := fun k => funext fun a => Fin.ext (by
    match a with
    | ⟨0, _⟩ => rfl
    | ⟨1, _⟩ => rfl
    | ⟨2, _⟩ => rfl)
  have er : ∀ k : Fin 1024, Read.idx_main_v9 (Read.ridx_main_v10 (ix3 t b r) k) = ix2 r (Fin.castLE (by decide : 1024 ≤ 2048) k) :=
    fun k => funext fun a => Fin.ext (by
      match a with
      | ⟨0, _⟩ => rfl
      | ⟨1, _⟩ => rfl)
  have eb : Read.idx_main_v11 (Read.idx_main_v12 (ix3 t b r)) = ix1 r := funext fun a => Fin.ext (by
    match a with
    | ⟨0, _⟩ => rfl)
  rw [Read.val_main_v13_apply, Read.val_main_v10_apply, Read.val_main_v12_apply, Read.val_main_v11_apply, eb, rows_eq]
  unfold Cert.Spec.pre
  simp only [Read.val_main_v9_apply, el, er, Ideal.addf_def]

/-- An entry of the biased product whose last coordinate is `h` places into live group `s` is a live pre-activation. -/
theorem live_eq (s : Fin 5) (off : Nat) (hs : (Cert.Spec.liveGroup s).val * 1024 = off) (i : S512x32x7168.Idx) (t : Fin 512) (b : Fin 32)
    (h : Fin 1024) (h0 : (i 0).val = t.val) (h1 : (i 1).val = b.val) (h2 : (i 2).val = off + h.val) :
    Read.val_main_v13 (F := Ideal) x0 x2 x3 x4 i = Cert.Spec.pre (Cert.Spec.rows x0 x2) x3 x4 t b (Cert.Spec.liveRow s h) := by
  rw [← pre_eq]
  exact congrArg _ (funext fun a => Fin.ext (by
    match a with
    | ⟨0, _⟩ => exact h0
    | ⟨1, _⟩ => exact h1
    | ⟨2, _⟩ => show (i 2).val = (Cert.Spec.liveGroup s).val * 1024 + h.val; omega))

/-! ## The gates -/

/-- The five live pre-activations at `(t, b, h)`. -/
abbrev pAt (t : Fin 512) (b : Fin 32) (h : Fin 1024) : Fin 5 → EReal :=
  fun s => Cert.Spec.pre (Cert.Spec.rows x0 x2) x3 x4 t b (Cert.Spec.liveRow s h)

/-- `1 / (1 + e^(−a))` with the literal ones is the logistic function. -/
theorem sigmoid_eq (a : EReal) :
    FloatOps.hostDivf (F := Ideal) (φ := .f32) (FloatOps.ofBits .f32 0x3F800000#32)
        (FloatOps.addf (FloatOps.ofBits .f32 0x3F800000#32) (FloatOps.hostUnary .exp (FloatOps.hostNegf a))) = Ideal.logistic a := by
  simp only [Ideal.hostDivf_def, Ideal.ofBits_def, Ideal.ofBits_one_f32, Ideal.addf_def, Ideal.hostUnary_exp_def, Ideal.hostNegf_def,
    Ideal.negf_def]
  rfl

/-- A value differs from itself nowhere. -/
theorem une_self (y : EReal) : FloatOps.cmpf (F := Ideal) (φ := .f32) .une y y = 0#1 := by
  rw [Ideal.cmpf_def]
  simp [Ideal.cmp]

theorem gate0_eq (t : Fin 512) (b : Fin 32) (h : Fin 1024) :
    Read.val_main_v26 (F := Ideal) x0 x2 x3 x4 (ix3 t b h) = Ideal.logistic (pAt x0 x2 x3 x4 t b h 0) := by
  rw [Read.val_main_v26_apply, Read.val_main_v25_apply, Read.val_main_cst_1_apply, Read.val_main_v24_apply, Read.val_main_v23_apply,
    Read.val_main_cst_apply, Read.val_main_v22_apply, Read.val_main_v21_apply, Read.val_main_v14_apply, sigmoid_eq,
    live_eq x0 x2 x3 x4 0 0 rfl _ t b h rfl rfl (Nat.zero_add _).symm]

theorem gate1_eq (t : Fin 512) (b : Fin 32) (h : Fin 1024) :
    Read.val_main_v27 (F := Ideal) x0 x2 x3 x4 (ix3 t b h) = Ideal.tanh (pAt x0 x2 x3 x4 t b h 1) := by
  rw [Read.val_main_v27_apply, Read.val_main_v16_apply, live_eq x0 x2 x3 x4 1 2048 rfl _ t b h rfl rfl rfl]
  rfl

theorem gate2_eq (t : Fin 512) (b : Fin 32) (h : Fin 1024) :
    Read.val_main_v33 (F := Ideal) x0 x2 x3 x4 (ix3 t b h) = Ideal.logistic (pAt x0 x2 x3 x4 t b h 2) := by
  rw [Read.val_main_v33_apply, Read.val_main_v32_apply, Read.val_main_cst_3_apply, Read.val_main_v31_apply, Read.val_main_v30_apply,
    Read.val_main_cst_2_apply, Read.val_main_v29_apply, Read.val_main_v28_apply, Read.val_main_v17_apply, sigmoid_eq,
    live_eq x0 x2 x3 x4 2 3072 rfl _ t b h rfl rfl rfl]

theorem gate3_eq (t : Fin 512) (b : Fin 32) (h : Fin 1024) :
    Read.val_main_v39 (F := Ideal) x0 x2 x3 x4 (ix3 t b h) = Ideal.logistic (pAt x0 x2 x3 x4 t b h 3) := by
  rw [Read.val_main_v39_apply, Read.val_main_v38_apply, Read.val_main_cst_5_apply, Read.val_main_v37_apply, Read.val_main_v36_apply,
    Read.val_main_cst_4_apply, Read.val_main_v35_apply, Read.val_main_v34_apply, Read.val_main_v18_apply, sigmoid_eq,
    live_eq x0 x2 x3 x4 3 4096 rfl _ t b h rfl rfl rfl]

theorem gate4_eq (t : Fin 512) (b : Fin 32) (h : Fin 1024) :
    Read.val_main_v40 (F := Ideal) x0 x2 x3 x4 (ix3 t b h) = Cert.Spec.softplus (pAt x0 x2 x3 x4 t b h 4) := by
  rw [Read.val_main_v40_apply, Read.val_main_call0_v4_apply, une_self, select_zero, Read.val_main_call0_v11_apply,
    Read.val_main_call0_v1_apply, Read.val_main_call0_v0_apply, Read.val_main_call0_cst_apply, Read.val_main_call0_v10_apply,
    Read.val_main_call0_v9_apply, Read.val_main_call0_v8_apply, Read.val_main_call0_v7_apply, Read.val_main_call0_v3_apply,
    Read.val_main_call0_v2_apply, Read.val_main_call0_cst_apply, Read.val_main_v20_apply,
    live_eq x0 x2 x3 x4 4 6144 rfl _ t b h rfl rfl rfl]
  unfold Cert.Spec.softplus
  simp only [Ideal.ofBits_def, Ideal.ofBits_zero_f32, Ideal.addf_def, Ideal.maximumf_def, Ideal.hostUnary_log1p_def,
    Ideal.hostUnary_exp_def, Ideal.hostNegf_def, Ideal.negf_def, Ideal.hostAbsf_def, Ideal.absf_def, Ideal.subf_def, sub_zero]

/-! ## The five results -/

theorem cellC_eq (t : Fin 512) (b : Fin 32) (h : Fin 1024) :
    Read.val_main_v41 (F := Ideal) x0 x2 x3 x4 (ix3 t b h) = Cert.Spec.cellC (pAt x0 x2 x3 x4 t b h) := by
  rw [Read.val_main_v41_apply, gate0_eq, gate1_eq]
  rfl

theorem cellBar_eq (t : Fin 512) (b : Fin 32) (h : Fin 1024) :
    Read.val_main_v42 (F := Ideal) x0 x2 x3 x4 (ix3 t b h) = Cert.Spec.cellBar (pAt x0 x2 x3 x4 t b h) := by
  rw [Read.val_main_v42_apply, gate3_eq, gate1_eq]
  rfl

theorem gateO_eq (t : Fin 512) (b : Fin 32) (h : Fin 1024) :
    Read.val_main_v33 (F := Ideal) x0 x2 x3 x4 (ix3 t b h) = Cert.Spec.gateO (pAt x0 x2 x3 x4 t b h) :=
  gate2_eq x0 x2 x3 x4 t b h

theorem rate_eq (t : Fin 512) (b : Fin 32) (h : Fin 1024) :
    Read.val_main_v40 (F := Ideal) x0 x2 x3 x4 (ix3 t b h) = Cert.Spec.rate (pAt x0 x2 x3 x4 t b h) :=
  gate4_eq x0 x2 x3 x4 t b h

theorem hidden_eq (t : Fin 512) (b : Fin 32) (h : Fin 1024) :
    Read.val_main_v52 (F := Ideal) x0 x1 x2 x3 x4 (ix3 t b h) = Cert.Spec.hidden (pAt x0 x2 x3 x4 t b h) (x1 (ix2 b t)) := by
  have ed : Read.idx_main_v1 (Read.idx_main_v45 (Read.idx_main_v46 (ix3 t b h))) = ix2 b t := funext fun a => Fin.ext (by
    match a with
    | ⟨0, _⟩ => rfl
    | ⟨1, _⟩ => rfl)
  rw [Read.val_main_v52_apply, Read.val_main_v51_apply, Read.val_main_v50_apply, Read.val_main_v49_apply, Read.val_main_v43_apply,
    Read.val_main_v48_apply, Read.val_main_v47_apply, Read.val_main_v44_apply, Read.val_main_v46_apply, Read.val_main_v45_apply,
    Read.val_main_v1_apply, ed, gateO_eq, cellBar_eq, cellC_eq, rate_eq]
  rfl

/-! ## The stack of the five -/

/-- Five arrays `[1, 512, 32, 1024]` joined along the leading axis: entry `(g, t, b, h)` is piece `g` at `(0, t, b, h)`. -/
theorem stack_apply (p0 p1 p2 p3 p4 : S1x512x32x1024.Idx → EReal)
    (hc : Shape.Concatenates [S1x512x32x1024, S1x512x32x1024, S1x512x32x1024, S1x512x32x1024, S1x512x32x1024] S5x512x32x1024 0)
    (g : Fin 5) (t : Fin 512) (b : Fin 32) (h : Fin 1024) :
    concatenate S5x512x32x1024 0 [⟨S1x512x32x1024, p0⟩, ⟨S1x512x32x1024, p1⟩, ⟨S1x512x32x1024, p2⟩, ⟨S1x512x32x1024, p3⟩,
        ⟨S1x512x32x1024, p4⟩] hc (ix4 g t b h)
      = (![p0, p1, p2, p3, p4] : Fin 5 → S1x512x32x1024.Idx → EReal) g (ix4 0 t b h) :=
  concatenate_ofFn_unit_apply (t := S5x512x32x1024) (s₁ := S1x512x32x1024) 0 ![p0, p1, p2, p3, p4] hc rfl rfl (ix4 g t b h) g rfl
    (ix4 0 t b h) (fun a ha => by
      match a with
      | ⟨0, _⟩ => exact absurd rfl ha
      | ⟨1, _⟩ => rfl
      | ⟨2, _⟩ => rfl
      | ⟨3, _⟩ => rfl)

/-- A piece at `(0, t, b, h)` reads its array at `(t, b, h)`. -/
theorem piece_idx (g : Fin 1) (t : Fin 512) (b : Fin 32) (h : Fin 1024) : Read.idx_main_v53 (ix4 g t b h) = ix3 t b h :=
  funext fun a => Fin.ext (by
    match a with
    | ⟨0, _⟩ => rfl
    | ⟨1, _⟩ => rfl
    | ⟨2, _⟩ => rfl)

/-- The reference's last stage is the specification's function of the five arguments. -/
theorem stage_eq : Read.val_main_v58 (F := Ideal) x0 x1 x2 x3 x4 = Cert.Spec.G x0 x1 x2 x3 x4 := by
  funext j
  obtain ⟨g, t, b, h, rfl⟩ : ∃ (g : Fin 5) (t : Fin 512) (b : Fin 32) (h : Fin 1024), j = ix4 g t b h :=
    ⟨j 0, j 1, j 2, j 3, eq_ix4 j⟩
  rw [Cert.Spec.G_apply]
  unfold Read.val_main_v58
  rw [stack_apply]
  match g with
  | ⟨0, _⟩ =>
    show Read.val_main_v53 (F := Ideal) x0 x1 x2 x3 x4 (ix4 0 t b h) = Cert.Spec.hidden (pAt x0 x2 x3 x4 t b h) (x1 (ix2 b t))
    rw [Read.val_main_v53_apply, piece_idx, hidden_eq]
  | ⟨1, _⟩ =>
    show Read.val_main_v54 (F := Ideal) x0 x2 x3 x4 (ix4 0 t b h) = Cert.Spec.cellC (pAt x0 x2 x3 x4 t b h)
    rw [Read.val_main_v54_apply]
    exact (congrArg _ (piece_idx 0 t b h)).trans (cellC_eq x0 x2 x3 x4 t b h)
  | ⟨2, _⟩ =>
    show Read.val_main_v55 (F := Ideal) x0 x2 x3 x4 (ix4 0 t b h) = Cert.Spec.cellBar (pAt x0 x2 x3 x4 t b h)
    rw [Read.val_main_v55_apply]
    exact (congrArg _ (piece_idx 0 t b h)).trans (cellBar_eq x0 x2 x3 x4 t b h)
  | ⟨3, _⟩ =>
    show Read.val_main_v56 (F := Ideal) x0 x2 x3 x4 (ix4 0 t b h) = Cert.Spec.gateO (pAt x0 x2 x3 x4 t b h)
    rw [Read.val_main_v56_apply]
    exact (congrArg _ (piece_idx 0 t b h)).trans (gateO_eq x0 x2 x3 x4 t b h)
  | ⟨4, _⟩ =>
    show Read.val_main_v57 (F := Ideal) x0 x2 x3 x4 (ix4 0 t b h) = Cert.Spec.rate (pAt x0 x2 x3 x4 t b h)
    rw [Read.val_main_v57_apply]
    exact (congrArg _ (piece_idx 0 t b h)).trans (rate_eq x0 x2 x3 x4 t b h)

end

theorem res_eq (m : (ℓ : Loc nD τ sig) → Buf (Elt Ideal) ℓ) (c : Dev nD) :
    (Cert.ReferenceIdeal.Value.res_out0 (F := Ideal) m c : S5x512x32x1024.Idx → EReal)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  (Read.val_main_v58_eq (F := Ideal) m c).trans (stage_eq _ _ _ _ _)

end Cert.ReferenceIdeal.RefValue

end
-- ==== Proof.lean ====
/-
  A continuous-time LSTM cell with its state reset at every step, computed for all 512 × 32 (time step, batch row)
  pairs at once: the kernel program against its plain reference, over the extended reals.

  Both programs embed each event number as a row of the table, form the gate pre-activations `X · Wᵀ + bias`, and
  from the live ones the stacked results `(h, c, c̄, o, δ)`. They differ in three ways, none of which changes a value
  on the extended reals when the inputs are finite and the event numbers name table rows:
  * the kernel program computes only the five live gate groups of the seven, gathered side by side, and the matrix
    product in three passes over high-order and low-order halves of activations and weights — the high-order half
    of a value is the value, the low-order half of a finite value is `x − x = 0`, and the two passes that meet a
    low-order half add zero;
  * the kernel program fills the embedded row of an event number outside `[0, 1000]` (counted from the end when
    negative) where the reference takes the nearest row; the precondition keeps every number in `[−1001, 1000]`,
    where no row is filled;
  * the sigmoid is one operation in the kernel and the expression `1 / (1 + e^(−x))` in the reference: one function.
  `Spec.G` is that common function of the five argument arrays; the kernel program's run ends with the result array
  at `G` (`KValue.run`: the frame of the pipelined region, then the blocks written back read index by index), and
  the reference's run ends at `G` too (`RefValue.res_eq` over the generated run).

  The three frames: each program terminates without a fault and leaves its arguments as launched — for the two
  kernel programs the frame of the pipelined region (the body owns its staging buffers, loads and stores whole
  rectangles, and no host operation writes an argument); for the reference its run with the result forgotten. The
  kernel program read at the extended reals is the word-level one with one rewrite, a widening of a narrowing taken
  as the identity: the one ledger entry.
-/
import proofs.«419382_j50010599194914_3_alg».proof.Defs
import proofs.«419382_j50010599194914_3_alg».proof.Proof.Gen.Kernel
import proofs.«419382_j50010599194914_3_alg».proof.Proof.Gen.KernelIdeal
import proofs.«419382_j50010599194914_3_alg».proof.Proof.Gen.ReferenceIdeal
import proofs.«419382_j50010599194914_3_alg».proof.Proof.Gen.Pre_finite_inputs
import proofs.«419382_j50010599194914_3_alg».proof.Proof.FrameK
import proofs.«419382_j50010599194914_3_alg».proof.Proof.FrameI
import proofs.«419382_j50010599194914_3_alg».proof.Proof.KernelValue
import proofs.«419382_j50010599194914_3_alg».proof.Proof.PreFacts
import proofs.«419382_j50010599194914_3_alg».proof.Proof.RefRead
import proofs.«419382_j50010599194914_3_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Frame.frame m ρ

/-- So does the kernel program read at the extended reals. -/
theorem frame_ki : Cert.frame_KernelIdeal := fun m ρ _ => Cert.KernelIdeal.Frame.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite between the two kernel programs: narrowing to the short format and widening back is the identity
    on the extended reals, and the rounding through the short format on words. -/
theorem preserves : Cert.preserves_Kernel_KernelIdeal := IdealRules.truncf_extf.statement _ .f32 .bf16

/-- From memories that agree on the arguments, both programs end with the result array at the specification's function
    of the arguments. -/
theorem algebraic : Cert.algebraic_KernelIdeal_ReferenceIdeal := by
  intro m ρ m' ρ' hpre hagree
  have hyps : ∀ c, Cert.KernelIdeal.KValue.Hyps m c := fun c => by
    obtain ⟨h1, h2, h3⟩ := Cert.PreFacts.of_fn _ _ _ _ _ (hpre c)
    exact ⟨h1, h2, h3⟩
  refine ⟨fun c => Cert.KernelIdeal.KValue.Gm m c, Cert.KernelIdeal.KValue.run m ρ hyps, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.res_eq m' c).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
